-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x512x128x128 : Shape := ⟨4, ![8, 512, 128, 128]⟩
abbrev S32x512 : Shape := ⟨2, ![32, 512]⟩
abbrev S32 : Shape := ⟨1, ![32]⟩
abbrev S_ : Shape := ⟨0, ![]⟩

class Facts : Prop where
  bcast_S_S8x512x128x128 : S_.BroadcastsInDim S8x512x128x128 (![] : Fin 0 → Fin S8x512x128x128.rank)
  reducesTo_S8x512x128x128_S_d0_1_2_3 : S8x512x128x128.ReducesTo [0, 1, 2, 3] S_
  h_S_ : 0 < S_.numel
  bcast_S_S32x512 : S_.BroadcastsInDim S32x512 (![] : Fin 0 → Fin S32x512.rank)
  reducesTo_S32x512_S_d0_1 : S32x512.ReducesTo [0, 1] S_
  bcast_S_S32 : S_.BroadcastsInDim S32 (![] : Fin 0 → Fin S32.rank)
  reducesTo_S32_S_d0 : S32.ReducesTo [0] S_

variable [Facts]

def fn {F : FTy → Type} [FloatOps F] (main_arg0 : FVec F S8x512x128x128 .f32) (main_arg1 : FVec F S32x512 .f32) (main_arg2 : FVec F S32 .f32) : IVec S_ 1 :=
  let main_v0 : FVec F S8x512x128x128 .f32 := Host.absf main_arg0
  let main_cst : FVec F S_ .f32 := constant S_ .f32 0x7F800000#32
  let main_v1 : FVec F S8x512x128x128 .f32 := broadcastInDim S8x512x128x128 ![] bcast_S_S8x512x128x128 main_cst
  let main_v2 : IVec S8x512x128x128 1 := cmpf .olt main_v0 main_v1
  let main_c : IVec S_ 1 := constantI S_ 1 1#1
  let main_v3 : IVec S_ 1 := (fun x v => Host.reduce IntOp.andi x v reducesTo_S8x512x128x128_S_d0_1_2_3 h_S_) main_v2 main_c
  let main_v4 : FVec F S32x512 .f32 := Host.absf main_arg1
  let main_cst_0 : FVec F S_ .f32 := constant S_ .f32 0x7F800000#32
  let main_v5 : FVec F S32x512 .f32 := broadcastInDim S32x512 ![] bcast_S_S32x512 main_cst_0
  let main_v6 : IVec S32x512 1 := cmpf .olt main_v4 main_v5
  let main_c_1 : IVec S_ 1 := constantI S_ 1 1#1
  let main_v7 : IVec S_ 1 := (fun x v => Host.reduce IntOp.andi x v reducesTo_S32x512_S_d0_1 h_S_) main_v6 main_c_1
  let main_v8 : IVec S_ 1 := andi main_v3 main_v7
  let main_v9 : FVec F S32 .f32 := Host.absf main_arg2
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  main_v13
-- ==== Kernel.lean ====
abbrev S8x512x128x128 : Shape := ⟨4, ![8, 512, 128, 128]⟩
abbrev S32x512 : Shape := ⟨2, ![32, 512]⟩
abbrev S32 : Shape := ⟨1, ![32]⟩
abbrev S_ : Shape := ⟨0, ![]⟩
abbrev S8x32x512 : Shape := ⟨3, ![8, 32, 512]⟩
abbrev S1x512x16x128 : Shape := ⟨4, ![1, 512, 16, 128]⟩
abbrev S1x32x512 : Shape := ⟨3, ![1, 32, 512]⟩
abbrev S512x16x128 : Shape := ⟨3, ![512, 16, 128]⟩
abbrev S512x2048 : Shape := ⟨2, ![512, 2048]⟩
abbrev S2048 : Shape := ⟨1, ![2048]⟩
abbrev S32x2048 : Shape := ⟨2, ![32, 2048]⟩
abbrev S32x1 : Shape := ⟨2, ![32, 1]⟩
abbrev S1x2048 : Shape := ⟨2, ![1, 2048]⟩

abbrev nBuf : Space → Nat
  | .hbm => 7
  | .vmem => 9
  | .smem => 0
  | _ => 0

abbrev bufTy : (tb : Table) → Fin (tcTables nBuf tb) → BufTy
  | .hbm, ⟨0, _⟩ => ⟨S8x512x128x128, .f32⟩
  | .hbm, ⟨1, _⟩ => ⟨S32x512, .f32⟩
  | .hbm, ⟨2, _⟩ => ⟨S32, .f32⟩
  | .hbm, ⟨3, _⟩ => ⟨S32x512, .f32⟩
  | .hbm, ⟨4, _⟩ => ⟨S_, .f32⟩
  | .hbm, ⟨5, _⟩ => ⟨S32, .f32⟩
  | .hbm, ⟨6, _⟩ => ⟨S8x32x512, .f32⟩
  | .local _ .vmem, ⟨0, _⟩ => ⟨S1x512x16x128, .f32⟩
  | .local _ .vmem, ⟨1, _⟩ => ⟨S1x512x16x128, .f32⟩
  | .local _ .vmem, ⟨2, _⟩ => ⟨S32x512, .f32⟩
  | .local _ .vmem, ⟨3, _⟩ => ⟨S32, .f32⟩
  | .local _ .vmem, ⟨4, _⟩ => ⟨S32, .f32⟩
  | .local _ .vmem, ⟨5, _⟩ => ⟨S1x32x512, .f32⟩
  | .local _ .vmem, ⟨6, _⟩ => ⟨S1x32x512, .f32⟩
  | .local _ .vmem, ⟨7, _⟩ => ⟨S32x512, .f32⟩
  | .local _ .vmem, ⟨8, _⟩ => ⟨S32, .f32⟩
  | _, _ => ⟨S8x512x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v50 : BitVec 1 := Scalar.cmpi .eq arg1 c7_i32
  let v51 : BitVec 32 := Scalar.extui v50
  let c0_i32_21 : BitVec 32 := 0#32
  let v52 : BitVec 1 := Scalar.cmpi .ne v51 c0_i32_21
  v52

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x16x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S32x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  reducesTo_S32x512_S32_d1 : S32x512.ReducesTo [1] S32
  h_S_ : 0 < S_.numel
  inb_S32x512_S32x512_0_0 : ∀ a, (![0, 0] : Fin 2 → Nat) a + S32x512.size a ≤ S32x512.size a
  h_S32x512 : 0 < S32x512.numel
  shapeCasts_S32x512_S32x512 : S32x512.ShapeCasts S32x512
  inb_S32_S32_0 : ∀ a, (![0] : Fin 1 → Nat) a + S32.size a ≤ S32.size a
  h_S32 : 0 < S32.numel
  shapeCasts_S32_S32 : S32.ShapeCasts S32
  inb_S1x512x16x128_S1x512x16x128_0_0_0_0 : ∀ a, (![0, 0, 0, 0] : Fin 4 → Nat) a + S1x512x16x128.size a ≤ S1x512x16x128.size a
  h_S1x512x16x128 : 0 < S1x512x16x128.numel
  shapeCasts_S1x512x16x128_S512x16x128 : S1x512x16x128.ShapeCasts S512x16x128
  shapeCasts_S512x16x128_S512x2048 : S512x16x128.ShapeCasts S512x2048
  reduces_S512x2048_S2048 : S512x2048.Reduces [0] S2048
  bitsLt_bf16_f32 : FTy.bits .bf16 < FTy.bits .f32
  shapeCasts_S32_S32x1 : S32.ShapeCasts S32x1
  shapeCasts_S2048_S1x2048 : S2048.ShapeCasts S1x2048
  broadcasts_S1x2048_S32x2048 : S1x2048.Broadcasts S32x2048
  broadcasts_S32x1_S32x2048 : S32x1.Broadcasts S32x2048
  reduces_S32x2048_S2048 : S32x2048.Reduces [0] S2048
  reduces_S32x2048_S32 : S32x2048.Reduces [1] S32
  broadcasts_S32x1_S32x512 : S32x1.Broadcasts S32x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  shapeCasts_S32x512_S1x32x512 : S32x512.ShapeCasts S1x32x512
  dot_S32x512_S512x2048_S32x2048_1_0_0_1_n_n_wf : DotDims.WF S32x512 S512x2048 S32x2048 [1] [0] [0] [1] [] []
  dot_S32x2048_S512x2048_S32x512_1_1_0_0_n_n_wf : DotDims.WF S32x2048 S512x2048 S32x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x16x128.size a ≤ S8x512x128x128.size a
  hwx0_0 : ∀ i : grid0.Coords, EltTy.bits .f32 = 32 ∨ (Rect.block (s := S8x512x128x128) S1x512x16x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x512.size a ≤ S32x512.size a
  hwx0_1 : ∀ i : grid0.Coords, EltTy.bits .f32 = 32 ∨ (Rect.block (s := S32x512) S32x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32.size a ≤ S32.size a
  hwx0_2 : ∀ i : grid0.Coords, EltTy.bits .f32 = 32 ∨ (Rect.block (s := S32) S32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32.size a ≤ S32.size a
  hwx0_3 : ∀ i : grid0.Coords, EltTy.bits .f32 = 32 ∨ (Rect.block (s := S32) S32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x512.size a ≤ S8x32x512.size a
  hwx0_4 : ∀ i : grid0.Coords, EltTy.bits .f32 = 32 ∨ (Rect.block (s := S8x32x512) S1x32x512.size (cc0_transform_4 i) (hinb0_4 i)).WholeWords (EltTy.packing .f32)

variable [Facts₀]

def dot_S32x512_S512x2048_S32x2048_1_0_0_1_n_n : DotDims S32x512 S512x2048 S32x2048 where
  lhsContracting := [1]
  rhsContracting := [0]
  lhsNonContracting := [0]
  rhsNonContracting := [1]
  lhsBatch := []
  rhsBatch := []
  wf := dot_S32x512_S512x2048_S32x2048_1_0_0_1_n_n_wf
def dot_S32x2048_S512x2048_S32x512_1_1_0_0_n_n : DotDims S32x2048 S512x2048 S32x512 where
  lhsContracting := [1]
  rhsContracting := [1]
  lhsNonContracting := [0]
  rhsNonContracting := [0]
  lhsBatch := []
  rhsBatch := []
  wf := dot_S32x2048_S512x2048_S32x512_1_1_0_0_n_n_wf

abbrev win0_0 : Pipeline.Window sig grid0 :=
  Pipeline.Window.ofSpec (Memref.whole main_arg0) S1x512x16x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x32x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8x512x128x128 : Shape := ⟨4, ![8, 512, 128, 128]⟩
abbrev S32x512 : Shape := ⟨2, ![32, 512]⟩
abbrev S32 : Shape := ⟨1, ![32]⟩
abbrev S8x512x16384 : Shape := ⟨3, ![8, 512, 16384]⟩
abbrev S8x16384x512 : Shape := ⟨3, ![8, 16384, 512]⟩
abbrev S_ : Shape := ⟨0, ![]⟩
abbrev S8x16384 : Shape := ⟨2, ![8, 16384]⟩
abbrev S8x16384x1 : Shape := ⟨3, ![8, 16384, 1]⟩
abbrev S8x16384x32 : Shape := ⟨3, ![8, 16384, 32]⟩
abbrev S1x1x32 : Shape := ⟨3, ![1, 1, 32]⟩
abbrev S8x32x512 : Shape := ⟨3, ![8, 32, 512]⟩
abbrev S8x32 : Shape := ⟨2, ![8, 32]⟩
abbrev S8x32x1 : Shape := ⟨3, ![8, 32, 1]⟩
abbrev S1x32x512 : Shape := ⟨3, ![1, 32, 512]⟩

abbrev nBuf : Space → Nat
  | .hbm => 47
  | .vmem => 0
  | .smem => 0
  | _ => 0

abbrev bufTy : (tb : Table) → Fin (tcTables nBuf tb) → BufTy
  | .hbm, ⟨0, _⟩ => ⟨S8x512x128x128, .f32⟩
  | .hbm, ⟨1, _⟩ => ⟨S32x512, .f32⟩
  | .hbm, ⟨2, _⟩ => ⟨S32, .f32⟩
  | .hbm, ⟨3, _⟩ => ⟨S8x512x16384, .f32⟩
  | .hbm, ⟨4, _⟩ => ⟨S8x16384x512, .f32⟩
  | .hbm, ⟨5, _⟩ => ⟨S8x16384x512, .f32⟩
  | .hbm, ⟨6, _⟩ => ⟨S_, .f32⟩
  | .hbm, ⟨7, _⟩ => ⟨S8x16384, .f32⟩
  | .hbm, ⟨8, _⟩ => ⟨S8x16384x1, .f32⟩
  | .hbm, ⟨9, _⟩ => ⟨S32x512, .f32⟩
  | .hbm, ⟨10, _⟩ => ⟨S_, .f32⟩
  | .hbm, ⟨11, _⟩ => ⟨S32, .f32⟩
  | .hbm, ⟨12, _⟩ => ⟨S8x16384x32, .f32⟩
  | .hbm, ⟨13, _⟩ => ⟨S_, .f32⟩
  | .hbm, ⟨14, _⟩ => ⟨S8x16384x32, .f32⟩
  | .hbm, ⟨15, _⟩ => ⟨S8x16384x32, .f32⟩
  | .hbm, ⟨16, _⟩ => ⟨S8x16384x32, .f32⟩
  | .hbm, ⟨17, _⟩ => ⟨S8x16384x32, .f32⟩
  | .hbm, ⟨18, _⟩ => ⟨S1x1x32, .f32⟩
  | .hbm, ⟨19, _⟩ => ⟨S8x16384x32, .f32⟩
  | .hbm, ⟨20, _⟩ => ⟨S8x16384x32, .f32⟩
  | .hbm, ⟨21, _⟩ => ⟨S1x1x32, .f32⟩
  | .hbm, ⟨22, _⟩ => ⟨S8x16384x32, .f32⟩
  | .hbm, ⟨23, _⟩ => ⟨S8x16384x32, .f32⟩
  | .hbm, ⟨24, _⟩ => ⟨S_, .f32⟩
  | .hbm, ⟨25, _⟩ => ⟨S8x16384, .f32⟩
  | .hbm, ⟨26, _⟩ => ⟨S_, .f32⟩
  | .hbm, ⟨27, _⟩ => ⟨S8x16384, .f32⟩
  | .hbm, ⟨28, _⟩ => ⟨S8x16384, .f32⟩
  | .hbm, ⟨29, _⟩ => ⟨S8x16384x1, .f32⟩
  | .hbm, ⟨30, _⟩ => ⟨S8x16384x32, .f32⟩
  | .hbm, ⟨31, _⟩ => ⟨S8x16384x32, .f32⟩
  | .hbm, ⟨32, _⟩ => ⟨S8x16384x32, .f32⟩
  | .hbm, ⟨33, _⟩ => ⟨S_, .f32⟩
  | .hbm, ⟨34, _⟩ => ⟨S8x16384, .f32⟩
  | .hbm, ⟨35, _⟩ => ⟨S8x16384x1, .f32⟩
  | .hbm, ⟨36, _⟩ => ⟨S8x16384x32, .f32⟩
  | .hbm, ⟨37, _⟩ => ⟨S8x16384x32, .f32⟩
  | .hbm, ⟨38, _⟩ => ⟨S8x32x512, .f32⟩
  | .hbm, ⟨39, _⟩ => ⟨S_, .f32⟩
  | .hbm, ⟨40, _⟩ => ⟨S8x32, .f32⟩
  | .hbm, ⟨41, _⟩ => ⟨S8x32x1, .f32⟩
  | .hbm, ⟨42, _⟩ => ⟨S1x32x512, .f32⟩
  | .hbm, ⟨43, _⟩ => ⟨S8x32x512, .f32⟩
  | .hbm, ⟨44, _⟩ => ⟨S8x32x512, .f32⟩
  | .hbm, ⟨45, _⟩ => ⟨S8x32x512, .f32⟩
  | .hbm, ⟨46, _⟩ => ⟨S8x32x512, .f32⟩
  | _, _ => ⟨S8x512x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_2 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩

abbrev nD : Nat := 1
abbrev τ : Topo := Topo.v7x

variable {F : FTy → Type} [FloatOps F]

class Facts₀ : Prop where
  shapeCasts_S8x512x128x128_S8x512x16384 : S8x512x128x128.ShapeCasts S8x512x16384
  transposes_S8x512x16384_S8x16384x512_0_2_1 : S8x512x16384.Transposes [0, 2, 1] S8x16384x512
  reducesTo_S8x16384x512_S8x16384_d2 : S8x16384x512.ReducesTo [2] S8x16384
  h_S_ : 0 < S_.numel
  bcast_S8x16384_S8x16384x1_0_1 : S8x16384.BroadcastsInDim S8x16384x1 (![0, 1] : Fin 2 → Fin S8x16384x1.rank)
  reducesTo_S32x512_S32_d1 : S32x512.ReducesTo [1] S32
  bcast_S_S8x16384x32 : S_.BroadcastsInDim S8x16384x32 (![] : Fin 0 → Fin S8x16384x32.rank)
  bcast_S8x16384x1_S8x16384x32_0_1_2 : S8x16384x1.BroadcastsInDim S8x16384x32 (![0, 1, 2] : Fin 3 → Fin S8x16384x32.rank)
  bcast_S32_S1x1x32_2 : S32.BroadcastsInDim S1x1x32 (![2] : Fin 1 → Fin S1x1x32.rank)
  bcast_S1x1x32_S8x16384x32_0_1_2 : S1x1x32.BroadcastsInDim S8x16384x32 (![0, 1, 2] : Fin 3 → Fin S8x16384x32.rank)
  reducesTo_S8x16384x32_S8x16384_d2 : S8x16384x32.ReducesTo [2] S8x16384
  bcast_S_S8x16384 : S_.BroadcastsInDim S8x16384 (![] : Fin 0 → Fin S8x16384.rank)
  reducesTo_S8x16384x32_S8x32_d1 : S8x16384x32.ReducesTo [1] S8x32
  bcast_S8x32_S8x32x1_0_1 : S8x32.BroadcastsInDim S8x32x1 (![0, 1] : Fin 2 → Fin S8x32x1.rank)
  bcast_S32x512_S1x32x512_1_2 : S32x512.BroadcastsInDim S1x32x512 (![1, 2] : Fin 2 → Fin S1x32x512.rank)
  bcast_S8x32x1_S8x32x512_0_1_2 : S8x32x1.BroadcastsInDim S8x32x512 (![0, 1, 2] : Fin 3 → Fin S8x32x512.rank)
  bcast_S1x32x512_S8x32x512_0_1_2 : S1x32x512.BroadcastsInDim S8x32x512 (![0, 1, 2] : Fin 3 → Fin S8x32x512.rank)
  dot_S8x16384x512_S32x512_S8x16384x32_2_1_01_0_n_n_wf : DotDims.WF S8x16384x512 S32x512 S8x16384x32 [2] [1] [0, 1] [0] [] []
  dot_S8x16384x32_S8x16384x512_S8x32x512_1_1_2_2_0_0_wf : DotDims.WF S8x16384x32 S8x16384x512 S8x32x512 [1] [1] [2] [2] [0] [0]

variable [Facts₀]

def dot_S8x16384x512_S32x512_S8x16384x32_2_1_01_0_n_n : DotDims S8x16384x512 S32x512 S8x16384x32 where
  lhsContracting := [2]
  rhsContracting := [1]
  lhsNonContracting := [0, 1]
  rhsNonContracting := [0]
  lhsBatch := []
  rhsBatch := []
  wf := dot_S8x16384x512_S32x512_S8x16384x32_2_1_01_0_n_n_wf
def dot_S8x16384x32_S8x16384x512_S8x32x512_1_1_2_2_0_0 : DotDims S8x16384x32 S8x16384x512 S8x32x512 where
  lhsContracting := [1]
  rhsContracting := [1]
  lhsNonContracting := [2]
  rhsNonContracting := [2]
  lhsBatch := [0]
  rhsBatch := [0]
  wf := dot_S8x16384x32_S8x16384x512_S8x32x512_1_1_2_2_0_0_wf

class Facts : Prop extends Facts₀ where

variable [Facts]
-- ==== Proof.LibFinSum.lean ====
/-
  Finite sums re-indexed: a sum over the `m * n` flat positions of a row-major `m × n` table is the sum over its rows of
  the sum along each row (entry `(i, j)` sits at position `i * n + j`), and a sum over the multi-indices of a rank-1
  shape is the sum over its one coordinate.  Only commutativity and associativity of the addition are used, so the
  statements hold in every commutative additive monoid, the extended reals with their infinities included.
-/
import Idealize.ShloMosaic.Lib.ValueIdx

open Idealize.ShloMosaic Idealize.ShloMosaic.ValueIdx

namespace Cert.LibFinSum

/-- Entry `(i, j)` of an `m × n` table sits inside its `m * n` flat positions. -/
theorem coord_lt {m n i j : ℕ} (hi : i < m) (hj : j < n) : i * n + j < m * n :=
  calc i * n + j < i * n + n := by omega
    _ = (i + 1) * n := by ring
    _ ≤ m * n := Nat.mul_le_mul_right n hi

/-- A sum over the flat positions of an `m × n` table, row by row. -/
theorem sum_fin_mul {M : Type*} [AddCommMonoid M] (m n : ℕ) (f : Fin (m * n) → M) :
    ∑ k, f k = ∑ i : Fin m, ∑ j : Fin n, f ⟨i.val * n + j.val, coord_lt i.isLt j.isLt⟩ := by
  rw [← (finProdFinEquiv (m := m) (n := n)).sum_comp f, Fintype.sum_prod_type]
  refine Finset.sum_congr rfl fun i _ => Finset.sum_congr rfl fun j _ => congrArg f (Fin.ext ?_)
  show j.val + n * i.val = i.val * n + j.val
  ring

/-- The same when the number of positions is only known to equal `m * n` (a literal such as `33554432 = 262144 * 128`). -/
theorem sum_fin_of_eq_mul {M : Type*} [AddCommMonoid M] {N : ℕ} (m n : ℕ) (h : N = m * n) (f : Fin N → M) :
    ∑ k, f k = ∑ i : Fin m, ∑ j : Fin n, f ⟨i.val * n + j.val, h ▸ coord_lt i.isLt j.isLt⟩ := by
  subst h
  exact sum_fin_mul m n f

/-- A rank-1 multi-index is its one coordinate. -/
def idxEquiv1 {n : ℕ} : (⟨1, ![n]⟩ : Shape).Idx ≃ Fin n where
  toFun j := j 0
  invFun := ix1
  left_inv j := (eq_ix1 j).symm
  right_inv _ := rfl

/-- A sum over the multi-indices of a rank-1 shape is the sum over its coordinate. -/
theorem sum_idx1 {M : Type*} [AddCommMonoid M] {n : ℕ} (f : (⟨1, ![n]⟩ : Shape).Idx → M) :
    ∑ i, f i = ∑ k : Fin n, f (ix1 k) :=
  (idxEquiv1.symm.sum_comp f).symm

end Cert.LibFinSum
-- ==== Proof.Spec.lean ====
/-
  The function both programs compute, stated once over the extended reals.

  Inputs: an image batch `X[b, d, h, w]` (8 × 512 × 128 × 128), a codebook `cw[k, d]` (32 × 512) and a
  per-codeword factor `sc[k]` (32).  Pixel `n = 128·h + w` of image `b` is the column `col X b n : d ↦ X[b, d, h, w]`.
  Its score against codeword `k` is `sc[k] · (|x|² − 2·⟨cw[k], x⟩ + |cw[k]|²)`; the 32 scores of a pixel are turned into
  weights by the softmax `exp (s k − M) / ∑ k', exp (s k' − M)`, `M` the maximum of the scores (taken from −∞, and once
  more against −∞); and the result is
      `E[b, k, d] = ∑ n, weight(b, n, k) · X[b, d, n]  −  (∑ n, weight(b, n, k)) · cw[k, d]`.
  The sum over the 16384 pixels of an image is also the sum over eight slabs of 2048 consecutive pixels
  (`sum_slabs`), which only uses that addition is commutative and associative, so it holds with infinities present.
-/
import Idealize.ShloMosaic.PureOps.Ideal
import Idealize.ShloMosaic.Lib.ValueIdx
import proofs.«162630_j14053132992759_1_alg».proof.Proof.LibFinSum

noncomputable section

open scoped BigOperators
open Idealize.ShloMosaic Idealize.ShloMosaic.ValueIdx

namespace Cert.Soft

/-- The image batch, the codebook, a length-32 vector, one slab of an image, and the result, as index sets. -/
abbrev SX : Shape := ⟨4, ![8, 512, 128, 128]⟩
abbrev SC : Shape := ⟨2, ![32, 512]⟩
abbrev SK : Shape := ⟨1, ![32]⟩
abbrev ST : Shape := ⟨4, ![1, 512, 16, 128]⟩
abbrev SE : Shape := ⟨3, ![8, 32, 512]⟩

/-- The word for −∞ from which both programs start a maximum, and the word for 2; never evaluated. -/
abbrev negInf : EReal := Ideal.ofBits .f32 0xFF800000#32
abbrev two : EReal := Ideal.ofBits .f32 0x40000000#32

/-- The maximum of 32 scores: folded from −∞, then taken against −∞ once more. -/
def rowMax (s : Fin 32 → EReal) : EReal :=
  max negInf ((Finset.univ : Finset (Fin 32)).fold max negInf s)

/-- The softmax weight of score `k` among the 32 scores `s`. -/
def weight (s : Fin 32 → EReal) (k : Fin 32) : EReal :=
  Ideal.div (Ideal.exp (s k - rowMax s)) (∑ k' : Fin 32, Ideal.exp (s k' - rowMax s))

/-- The squared norms of the codewords. -/
def c2 (cw : SC.Idx → EReal) : SK.Idx → EReal :=
  fun i => ∑ d : Fin 512, cw (ix2 (i 0) d) * cw (ix2 (i 0) d)

/-- The score of a pixel column `x` against codeword `k`, the codewords' squared norms given as a vector `q`. -/
def scoreC (cw : SC.Idx → EReal) (sc q : SK.Idx → EReal) (x : Fin 512 → EReal) (k : Fin 32) : EReal :=
  sc (ix1 k) * ((∑ d : Fin 512, x d * x d) - two * (∑ d : Fin 512, cw (ix2 k d) * x d) + q (ix1 k))

/-- The score with the squared norms computed from the codebook. -/
def score (cw : SC.Idx → EReal) (sc : SK.Idx → EReal) (x : Fin 512 → EReal) (k : Fin 32) : EReal :=
  scoreC cw sc (c2 cw) x k

/-- Pixel `n = 128·h + w` of image `b`, as a column over the 512 channels. -/
def col (X : SX.Idx → EReal) (b : Fin 8) (n : Fin 16384) : Fin 512 → EReal :=
  fun d => X (ix4 b d ⟨n.val / 128, by have := n.isLt; omega⟩ ⟨n.val % 128, Nat.mod_lt _ (by norm_num)⟩)

/-- Pixel `n' = 128·h' + w` of ONE slab (16 rows of an image), as a column over the channels. -/
def tcol (x : ST.Idx → EReal) (n : Fin 2048) : Fin 512 → EReal :=
  fun d => x (ix4 0 d ⟨n.val / 128, by have := n.isLt; omega⟩ ⟨n.val % 128, Nat.mod_lt _ (by norm_num)⟩)

/-- The weight of codeword `k` at pixel `n` of image `b`. -/
def A (X : SX.Idx → EReal) (cw : SC.Idx → EReal) (sc : SK.Idx → EReal) (b : Fin 8) (n : Fin 16384) (k : Fin 32) : EReal :=
  weight (score cw sc (col X b n)) k

/-- THE RESULT: weighted pixel sums minus the summed weights times the codeword. -/
def E (X : SX.Idx → EReal) (cw : SC.Idx → EReal) (sc : SK.Idx → EReal) : SE.Idx → EReal :=
  fun i => (∑ n : Fin 16384, A X cw sc (i 0) n (i 1) * col X (i 0) n (i 2))
    - (∑ n : Fin 16384, A X cw sc (i 0) n (i 1)) * cw (ix2 (i 1) (i 2))

/-- Pixel `n'` of slab `j` of an image (the position is reduced modulo 16384 so that it is defined for every `j`;
    for `j < 8` nothing is reduced). -/
def pos (j : ℕ) (n : Fin 2048) : Fin 16384 := ⟨(j * 2048 + n.val) % 16384, Nat.mod_lt _ (by norm_num)⟩

theorem pos_val {j : ℕ} (hj : j < 8) (n : Fin 2048) : (pos j n).val = j * 2048 + n.val := by
  have := n.isLt
  show (j * 2048 + n.val) % 16384 = _
  omega

/-- A sum over the pixels of an image, slab by slab. -/
theorem sum_slabs {M : Type*} [AddCommMonoid M] (g : Fin 16384 → M) :
    ∑ n, g n = ∑ j ∈ Finset.range 8, ∑ n : Fin 2048, g (pos j n) := by
  rw [Cert.LibFinSum.sum_fin_of_eq_mul 8 2048 (by norm_num) g, ← Fin.sum_univ_eq_sum_range (fun j => ∑ n : Fin 2048, g (pos j n)) 8]
  refine Finset.sum_congr rfl fun j _ => Finset.sum_congr rfl fun n _ => congrArg g (Fin.ext ?_)
  rw [pos_val j.isLt]

/-- What an accumulator holds after slab `j` when it is cleared before slab 0 and each slab adds its term:
    `0 + f 0`, then `+ f 1`, … -/
def acc {M : Type*} [AddCommMonoid M] (f : ℕ → M) : ℕ → M
  | 0 => 0 + f 0
  | j + 1 => acc f j + f (j + 1)

theorem acc_eq_sum {M : Type*} [AddCommMonoid M] (f : ℕ → M) (j : ℕ) : acc f j = ∑ i ∈ Finset.range (j + 1), f i := by
  induction j with
  | zero => simp [acc]
  | succ j ih => rw [acc, ih, Finset.sum_range_succ _ (j + 1)]

/-- Slab `j`'s share of the weighted pixel sum, and of the summed weights. -/
def slabE (X : SX.Idx → EReal) (cw : SC.Idx → EReal) (sc : SK.Idx → EReal) (b : Fin 8) (k : Fin 32) (d : Fin 512) (j : ℕ) : EReal :=
  ∑ n : Fin 2048, A X cw sc b (pos j n) k * col X b (pos j n) d
def slabS (X : SX.Idx → EReal) (cw : SC.Idx → EReal) (sc : SK.Idx → EReal) (b : Fin 8) (k : Fin 32) (j : ℕ) : EReal :=
  ∑ n : Fin 2048, A X cw sc b (pos j n) k

/-- The result from the two accumulators after the last slab. -/
theorem E_eq_acc (X : SX.Idx → EReal) (cw : SC.Idx → EReal) (sc : SK.Idx → EReal) (b : Fin 8) (k : Fin 32) (d : Fin 512) :
    E X cw sc (ix3 b k d) = acc (slabE X cw sc b k d) 7 - acc (slabS X cw sc b k) 7 * cw (ix2 k d) := by
  rw [acc_eq_sum, acc_eq_sum]
  show (∑ n : Fin 16384, A X cw sc b n k * col X b n d) - (∑ n : Fin 16384, A X cw sc b n k) * cw (ix2 k d) = _
  rw [sum_slabs (fun n => A X cw sc b n k * col X b n d), sum_slabs (fun n => A X cw sc b n k)]
  rfl

end Cert.Soft

end
-- ==== Proof.RefIsSpec.lean ====
/-
  The reference computes the result function: its last operation's value, read back one operation at a time, is
  `Cert.Soft.E` of the three arguments.

  Each stage is read at an index split into coordinates: the pixel columns (reshape and transpose), their squared
  norms, the codewords' squared norms, the inner products, the scores, the maximum of a pixel's scores, the
  exponentials and their sum, the softmax weights, and the two sums over the pixels of an image.
-/
import proofs.«162630_j14053132992759_1_alg».proof.Proof.Gen.ReferenceIdeal.Read
import proofs.«162630_j14053132992759_1_alg».proof.Proof.Spec
import Idealize.ShloMosaic.PureOps.Ideal.Laws

noncomputable section

open scoped BigOperators
open Idealize.ShloMosaic Idealize.ShloMosaic.ValueIdx Cert.Soft

namespace Cert.Soft.Ref

open Cert.ReferenceIdeal.Read

variable (X : (⟨Cert.ReferenceIdeal.S8x512x128x128, .f32⟩ : BufTy).Contents (Elt Ideal))
  (cw : (⟨Cert.ReferenceIdeal.S32x512, .f32⟩ : BufTy).Contents (Elt Ideal))
  (sc : (⟨Cert.ReferenceIdeal.S32, .f32⟩ : BufTy).Contents (Elt Ideal))

/-- The reshape (8,512,128,128) → (8,512,16384) followed by the transpose to (8,16384,512): entry (b, n, d) is
    channel `d` of pixel `n = 128·h + w` of image `b`. -/
theorem v1_at (b : Fin 8) (n : Fin 16384) (d : Fin 512) :
    val_main_v1 (F := Ideal) X (ix3 b n d) = col X b n d := by
  rw [val_main_v1_apply, val_main_v0_apply]
  show X _ = X _
  refine congrArg X (funext fun a => Fin.ext ?_)
  have hb := b.isLt; have hn := n.isLt; have hd := d.isLt
  match a with
  | ⟨0, _⟩ => show ((b.val * 512 + d.val) * 16384 + n.val) / 8388608 = b.val; omega
  | ⟨1, _⟩ => show ((b.val * 512 + d.val) * 16384 + n.val) / 16384 % 512 = d.val; omega
  | ⟨2, _⟩ => show ((b.val * 512 + d.val) * 16384 + n.val) / 128 % 128 = n.val / 128; omega
  | ⟨3, _⟩ => show ((b.val * 512 + d.val) * 16384 + n.val) % 128 = n.val % 128; omega

/-- The squared norm of a pixel column. -/
theorem v3_at (b : Fin 8) (n : Fin 16384) :
    val_main_v3 (F := Ideal) X (ix2 b n) = ∑ d : Fin 512, col X b n d * col X b n d := by
  rw [val_main_v3_apply, val_main_cst_apply]
  show Ideal.ofBits .f32 0x00000000#32 + _ = _
  rw [Ideal.ofBits_zero_f32, zero_add]
  refine Finset.sum_congr rfl fun d _ => ?_
  have e : idx_main_v3 (ix2 b n) d = ix3 b n d :=
    funext fun a => Fin.ext (by match a with | ⟨0, _⟩ => rfl | ⟨1, _⟩ => rfl | ⟨2, _⟩ => rfl)
  rw [e, val_main_v2_apply, v1_at]
  rfl

/-- The squared norm of codeword `k`. -/
theorem v6_at (k : Fin 32) :
    val_main_v6 (F := Ideal) cw (ix1 k) = c2 cw (ix1 k) := by
  rw [val_main_v6_apply, val_main_cst_0_apply]
  show Ideal.ofBits .f32 0x00000000#32 + _ = _
  rw [Ideal.ofBits_zero_f32, zero_add]
  refine Finset.sum_congr rfl fun d _ => ?_
  have e : idx_main_v6 (ix1 k) d = ix2 k d :=
    funext fun a => Fin.ext (by match a with | ⟨0, _⟩ => rfl | ⟨1, _⟩ => rfl)
  rw [e, val_main_v5_apply]
  rfl

/-- The inner product of pixel column (b, n) with codeword `k`, the pixel on the left. -/
theorem v7_at (b : Fin 8) (n : Fin 16384) (k : Fin 32) :
    val_main_v7 (F := Ideal) X cw (ix3 b n k) = ∑ d : Fin 512, cw (ix2 k d) * col X b n d := by
  rw [val_main_v7_apply]
  refine Finset.sum_congr rfl fun d _ => ?_
  have el : lidx_main_v7 (ix3 b n k) d = ix3 b n d :=
    funext fun a => Fin.ext (by match a with | ⟨0, _⟩ => rfl | ⟨1, _⟩ => rfl | ⟨2, _⟩ => rfl)
  have er : ridx_main_v7 (ix3 b n k) d = ix2 k d :=
    funext fun a => Fin.ext (by match a with | ⟨0, _⟩ => rfl | ⟨1, _⟩ => rfl)
  rw [el, er, v1_at, mul_comm]

/-- The score of pixel (b, n) against codeword `k`. -/
theorem v17_at (b : Fin 8) (n : Fin 16384) (k : Fin 32) :
    val_main_v17 (F := Ideal) X cw sc (ix3 b n k) = score cw sc (col X b n) k := by
  have e16 : idx_main_v15 (idx_main_v16 (ix3 b n k)) = ix1 k :=
    funext fun a => Fin.ext (by match a with | ⟨0, _⟩ => rfl)
  have e10 : idx_main_v4 (idx_main_v10 (ix3 b n k)) = ix2 b n :=
    funext fun a => Fin.ext (by match a with | ⟨0, _⟩ => rfl | ⟨1, _⟩ => rfl)
  have e13 : idx_main_v12 (idx_main_v13 (ix3 b n k)) = ix1 k :=
    funext fun a => Fin.ext (by match a with | ⟨0, _⟩ => rfl)
  rw [val_main_v17_apply, val_main_v16_apply, val_main_v15_apply, e16,
    val_main_v14_apply, val_main_v11_apply, val_main_v10_apply, val_main_v4_apply, e10, v3_at,
    val_main_v9_apply, val_main_v8_apply, val_main_cst_1_apply, v7_at,
    val_main_v13_apply, val_main_v12_apply, e13, v6_at]
  rfl

/-- The maximum of the 32 scores of pixel (b, n), folded from −∞. -/
theorem v18_at (b : Fin 8) (n : Fin 16384) :
    val_main_v18 (F := Ideal) X cw sc (ix2 b n)
      = (Finset.univ : Finset (Fin 32)).fold max negInf (score cw sc (col X b n)) := by
  unfold val_main_v18
  have h : Cert.ReferenceIdeal.S8x16384x32.Reduces [2] Cert.ReferenceIdeal.S8x16384 := by decide
  rw [Host.reduce_eq_fold_single FloatOps.maximumf _ _ _ h _]
  have hf : (val_main_v17 (F := Ideal) X cw sc ∘ h.lift (ix2 b n)) = fun k : Fin 32 => score cw sc (col X b n) k := by
    funext k
    have e : h.lift (ix2 b n) k = ix3 b n (⟨k.val, k.isLt⟩ : Fin 32) := by
      funext c; apply Fin.ext
      match c with
      | ⟨0, _⟩ => rfl
      | ⟨1, _⟩ => rfl
      | ⟨2, _⟩ => rfl
    show val_main_v17 (F := Ideal) X cw sc (h.lift (ix2 b n) k) = _
    rw [e, v17_at]
    rfl
  rw [hf]
  rfl

/-- The maximum taken once more against −∞: the row maximum of the scores. -/
theorem v20_at (b : Fin 8) (n : Fin 16384) :
    val_main_v20 (F := Ideal) X cw sc (ix2 b n) = rowMax (score cw sc (col X b n)) := by
  rw [val_main_v20_apply, val_main_v19_apply, val_main_cst_3_apply, v18_at]
  rfl

/-- The exponential of a score less the row maximum. -/
theorem v24_at (b : Fin 8) (n : Fin 16384) (k : Fin 32) :
    val_main_v24 (F := Ideal) X cw sc (ix3 b n k)
      = Ideal.exp (score cw sc (col X b n) k - rowMax (score cw sc (col X b n))) := by
  have e22 : idx_main_v21 (idx_main_v22 (ix3 b n k)) = ix2 b n :=
    funext fun a => Fin.ext (by match a with | ⟨0, _⟩ => rfl | ⟨1, _⟩ => rfl)
  rw [val_main_v24_apply, val_main_v23_apply, v17_at, val_main_v22_apply, val_main_v21_apply, e22, v20_at]
  rfl

/-- The sum of the 32 exponentials of pixel (b, n). -/
theorem v25_at (b : Fin 8) (n : Fin 16384) :
    val_main_v25 (F := Ideal) X cw sc (ix2 b n)
      = ∑ k' : Fin 32, Ideal.exp (score cw sc (col X b n) k' - rowMax (score cw sc (col X b n))) := by
  rw [val_main_v25_apply, val_main_cst_4_apply]
  show Ideal.ofBits .f32 0x00000000#32 + _ = _
  rw [Ideal.ofBits_zero_f32, zero_add]
  refine Finset.sum_congr rfl fun k _ => ?_
  have e : idx_main_v25 (ix2 b n) k = ix3 b n k :=
    funext fun a => Fin.ext (by match a with | ⟨0, _⟩ => rfl | ⟨1, _⟩ => rfl | ⟨2, _⟩ => rfl)
  rw [e, v24_at]

/-- The softmax weight of codeword `k` at pixel (b, n). -/
theorem v28_at (b : Fin 8) (n : Fin 16384) (k : Fin 32) :
    val_main_v28 (F := Ideal) X cw sc (ix3 b n k) = A X cw sc b n k := by
  have e27 : idx_main_v26 (idx_main_v27 (ix3 b n k)) = ix2 b n :=
    funext fun a => Fin.ext (by match a with | ⟨0, _⟩ => rfl | ⟨1, _⟩ => rfl)
  rw [val_main_v28_apply, v24_at, val_main_v27_apply, val_main_v26_apply, e27, v25_at]
  rfl

/-- The weighted sum of channel `d` over the pixels of image `b`. -/
theorem v29_at (b : Fin 8) (k : Fin 32) (d : Fin 512) :
    val_main_v29 (F := Ideal) X cw sc (ix3 b k d) = ∑ n : Fin 16384, A X cw sc b n k * col X b n d := by
  rw [val_main_v29_apply]
  refine Finset.sum_congr rfl fun n _ => ?_
  have el : lidx_main_v29 (ix3 b k d) n = ix3 b n k :=
    funext fun a => Fin.ext (by match a with | ⟨0, _⟩ => rfl | ⟨1, _⟩ => rfl | ⟨2, _⟩ => rfl)
  have er : ridx_main_v29 (ix3 b k d) n = ix3 b n d :=
    funext fun a => Fin.ext (by match a with | ⟨0, _⟩ => rfl | ⟨1, _⟩ => rfl | ⟨2, _⟩ => rfl)
  rw [el, er, v28_at, v1_at]

/-- The summed weights of codeword `k` over the pixels of image `b`. -/
theorem v30_at (b : Fin 8) (k : Fin 32) :
    val_main_v30 (F := Ideal) X cw sc (ix2 b k) = ∑ n : Fin 16384, A X cw sc b n k := by
  rw [val_main_v30_apply, val_main_cst_5_apply]
  show Ideal.ofBits .f32 0x00000000#32 + _ = _
  rw [Ideal.ofBits_zero_f32, zero_add]
  refine Finset.sum_congr rfl fun n _ => ?_
  have e : idx_main_v30 (ix2 b k) n = ix3 b n k :=
    funext fun a => Fin.ext (by match a with | ⟨0, _⟩ => rfl | ⟨1, _⟩ => rfl | ⟨2, _⟩ => rfl)
  rw [e, v28_at]

/-- The summed weights times the codeword's channel. -/
theorem v35_at (b : Fin 8) (k : Fin 32) (d : Fin 512) :
    val_main_v35 (F := Ideal) X cw sc (ix3 b k d) = (∑ n : Fin 16384, A X cw sc b n k) * cw (ix2 k d) := by
  have e33 : idx_main_v31 (idx_main_v33 (ix3 b k d)) = ix2 b k :=
    funext fun a => Fin.ext (by match a with | ⟨0, _⟩ => rfl | ⟨1, _⟩ => rfl)
  have e34 : idx_main_v32 (idx_main_v34 (ix3 b k d)) = ix2 k d :=
    funext fun a => Fin.ext (by match a with | ⟨0, _⟩ => rfl | ⟨1, _⟩ => rfl)
  rw [val_main_v35_apply, val_main_v33_apply, val_main_v31_apply, e33, v30_at,
    val_main_v34_apply, val_main_v32_apply, e34]
  rfl

/-- The reference's result is `E`. -/
theorem ref_is_E (X : (⟨Cert.ReferenceIdeal.S8x512x128x128, .f32⟩ : BufTy).Contents (Elt Ideal))
    (cw : (⟨Cert.ReferenceIdeal.S32x512, .f32⟩ : BufTy).Contents (Elt Ideal))
    (sc : (⟨Cert.ReferenceIdeal.S32, .f32⟩ : BufTy).Contents (Elt Ideal)) :
    Cert.ReferenceIdeal.Read.val_main_v36 (F := Ideal) X cw sc = E X cw sc := by
  funext i
  obtain ⟨b, k, d, rfl⟩ : ∃ b k d, i = ix3 b k d := ⟨i 0, i 1, i 2, eq_ix3 i⟩
  rw [Cert.ReferenceIdeal.Read.val_main_v36_apply, v29_at, v35_at]
  rfl

end Cert.Soft.Ref

end
-- ==== Proof.Blocks.lean ====
/-
  What the kernel's windows hold at a grid step.  Step `t` of the 8 × 8 grid works on image `t / 8` and on its slab
  `t % 8` (16 of the image's 128 rows): the first window's block is that slab, so its pixel `n` is pixel
  `2048·(t % 8) + n` of the image; the codebook, the per-codeword factors and the codewords' squared norms are passed
  whole at every step.  The squared norms are computed before the grid starts: the sum of squares along each
  codebook row, from zero.
-/
import proofs.«162630_j14053132992759_1_alg».proof.Proof.Gen.KernelIdeal.Value
import proofs.«162630_j14053132992759_1_alg».proof.Proof.Spec
import Idealize.ShloMosaic.PureOps.Ideal.Laws
import Idealize.ShloMosaic.Lib.StableHlo.Run

set_option maxRecDepth 16384

noncomputable section

open scoped BigOperators

namespace Cert.Soft.KV

open Cert.KernelIdeal Cert.KernelIdeal.Gen Idealize.ShloMosaic Idealize.ShloMosaic.TcCoe Idealize.SL.Sem
open Idealize.ShloMosaic.ValueIdx Cert.Soft

variable (m : (ℓ : Loc nD τ sig) → Buf (Elt Ideal) ℓ)

/-- The three argument arrays as the grid finds them, and the squared norms, each at its literal type. -/
abbrev Xarr (c : Dev nD) : SX.Idx → EReal := V m c main_arg0
abbrev Carr (c : Dev nD) : SC.Idx → EReal := V m c main_arg1
abbrev Sarr (c : Dev nD) : SK.Idx → EReal := V m c main_arg2
abbrev Qarr (c : Dev nD) : SK.Idx → EReal := V m c main_v1

/-- The four input blocks of step `t`, each at its literal type. -/
abbrev xblk (c : Dev nD) (t : Fin cfg0.N) : Vec Ideal S1x512x16x128 .f32 := iblk m c 0 t
abbrev cblk (c : Dev nD) (t : Fin cfg0.N) : Vec Ideal S32x512 .f32 := iblk m c 1 t
abbrev sblk (c : Dev nD) (t : Fin cfg0.N) : Vec Ideal S32 .f32 := iblk m c 2 t
abbrev qblk (c : Dev nD) (t : Fin cfg0.N) : Vec Ideal S32 .f32 := iblk m c 3 t

/-- Where the blocks sit, decided once over the 64 steps: the slab window at image `t / 8`, slab `t % 8`; the output
    window at image `t / 8`; the other windows at the origin. -/
theorem idx_facts : ∀ t : Fin cfg0.N,
    win0_0.index t (0 : Fin 4) = t.val / 8 ∧ win0_0.index t (1 : Fin 4) = 0 ∧ win0_0.index t (2 : Fin 4) = t.val % 8
    ∧ win0_0.index t (3 : Fin 4) = 0
    ∧ win0_1.index t (0 : Fin 2) = 0 ∧ win0_1.index t (1 : Fin 2) = 0
    ∧ win0_2.index t (0 : Fin 1) = 0 ∧ win0_3.index t (0 : Fin 1) = 0
    ∧ win0_4.index t (0 : Fin 3) = t.val / 8 ∧ win0_4.index t (1 : Fin 3) = 0 ∧ win0_4.index t (2 : Fin 3) = 0 :=
  (by decide +kernel : ∀ t : Fin grid0.N, _)

theorem t_lt (t : Fin cfg0.N) : t.val < 64 := lt_of_lt_of_eq t.isLt (show cfg0.N = 64 from N_0)

/-- The image a step works on. -/
def img (t : Fin cfg0.N) : Fin 8 := ⟨t.val / 8, by have := t_lt t; omega⟩

/-- Pixel `n` of step `t`'s slab is pixel `2048·(t % 8) + n` of image `t / 8`. -/
theorem tcol_xblk (c : Dev nD) (t : Fin cfg0.N) (n : Fin 2048) :
    tcol (xblk m c t) n = col (Xarr m c) (img t) (pos (t.val % 8) n) := by
  funext d
  obtain ⟨e0, e1, e2, e3, -⟩ := idx_facts t
  have hn := n.isLt
  have hp := pos_val (j := t.val % 8) (Nat.mod_lt _ (by norm_num)) n
  show V m c main_arg0 (((cfg0.win 0).blk t).view.emb (ix4 0 d ⟨n.val / 128, _⟩ ⟨n.val % 128, _⟩))
     = V m c main_arg0 (ix4 (img t) d ⟨(pos (t.val % 8) n).val / 128, _⟩ ⟨(pos (t.val % 8) n).val % 128, _⟩)
  refine congrArg (V m c main_arg0) (funext fun a => Fin.ext ?_)
  match a with
  | ⟨0, _⟩ => show win0_0.index t (0 : Fin 4) * 1 + 1 * 0 = t.val / 8; omega
  | ⟨1, _⟩ => show win0_0.index t (1 : Fin 4) * 512 + 1 * d.val = d.val; omega
  | ⟨2, _⟩ => show win0_0.index t (2 : Fin 4) * 16 + 1 * (n.val / 128) = (pos (t.val % 8) n).val / 128; omega
  | ⟨3, _⟩ => show win0_0.index t (3 : Fin 4) * 128 + 1 * (n.val % 128) = (pos (t.val % 8) n).val % 128; omega

/-- The codebook is passed whole. -/
theorem cblk_eq (c : Dev nD) (t : Fin cfg0.N) : cblk m c t = Carr m c := by
  funext y
  obtain ⟨-, -, -, -, e4, e5, -⟩ := idx_facts t
  show V m c main_arg1 (((cfg0.win 1).blk t).view.emb y) = V m c main_arg1 y
  refine congrArg (V m c main_arg1) (funext fun a => Fin.ext ?_)
  match a with
  | ⟨0, _⟩ => show win0_1.index t (0 : Fin 2) * 32 + 1 * (y 0).val = (y 0).val; omega
  | ⟨1, _⟩ => show win0_1.index t (1 : Fin 2) * 512 + 1 * (y 1).val = (y 1).val; omega

/-- So are the per-codeword factors … -/
theorem sblk_eq (c : Dev nD) (t : Fin cfg0.N) : sblk m c t = Sarr m c := by
  funext y
  obtain ⟨-, -, -, -, -, -, e6, -⟩ := idx_facts t
  show V m c main_arg2 (((cfg0.win 2).blk t).view.emb y) = V m c main_arg2 y
  refine congrArg (V m c main_arg2) (funext fun a => Fin.ext ?_)
  match a with
  | ⟨0, _⟩ => show win0_2.index t (0 : Fin 1) * 32 + 1 * (y 0).val = (y 0).val; omega

/-- … and the squared norms. -/
theorem qblk_eq (c : Dev nD) (t : Fin cfg0.N) : qblk m c t = Qarr m c := by
  funext y
  obtain ⟨-, -, -, -, -, -, -, e7, -⟩ := idx_facts t
  show V m c main_v1 (((cfg0.win 3).blk t).view.emb y) = V m c main_v1 y
  refine congrArg (V m c main_v1) (funext fun a => Fin.ext ?_)
  match a with
  | ⟨0, _⟩ => show win0_3.index t (0 : Fin 1) * 32 + 1 * (y 0).val = (y 0).val; omega

/-- The squared norms, computed before the grid: each codebook row's sum of squares, from zero. -/
theorem Qarr_eq (c : Dev nD) : Qarr m c = c2 (Carr m c) := by
  have e : (V m c main_v1 : S32.Idx → EReal)
      = Host.reduceAdd (F := Ideal) (mulf (V m c main_arg1 : S32x512.Idx → EReal) (V m c main_arg1)) (constant (F := Ideal) S_ .f32 0x00000000#32)
          Facts₀.reducesTo_S32x512_S32_d1 Facts₀.h_S_ := by
    dsimp only [Gen.V, Gen.hostOps0]; after_results
  funext i
  show (V m c main_v1 : S32.Idx → EReal) i = _
  rw [e]
  simp only [Host.reduceAdd, Ideal.hostReduceAdd_def]
  rw [Ideal.hostReduceAdd_single Facts₀.reducesTo_S32x512_S32_d1 (by decide)]
  show Ideal.ofBits .f32 0x00000000#32 + _ = ∑ d : Fin 512, Carr m c (ix2 (i 0) d) * Carr m c (ix2 (i 0) d)
  rw [Ideal.ofBits_zero_f32, zero_add]
  refine Finset.sum_congr rfl fun d _ => ?_
  have hi : ∀ (y : S32x512.Idx → EReal) (j j' : S32x512.Idx), j = j' → y j * y j = y j' * y j' := fun y j j' h => by rw [h]
  exact hi _ _ _ (funext fun a => Fin.ext (by match a with | ⟨0, _⟩ => rfl | ⟨1, _⟩ => rfl))

end Cert.Soft.KV

end
-- ==== Proof.Pieces.lean ====
/-
  What one grid step leaves in the two accumulators and in the output block, as a pure function of what the step
  loaded.  A step of the first kind (the first slab of an image) clears both accumulators and then adds the slab's
  share, so what it leaves does not depend on what they held; a step of the second kind adds the slab's share to
  what the step before left; a step of the third kind (the last slab of an image) does the same and then writes the
  output block: weighted sum minus summed weight times the codebook.
-/
import proofs.«162630_j14053132992759_1_alg».proof.Proof.Gen.KernelIdeal.Frame
import Idealize.ShloMosaic.Lib.Pipeline.Value

set_option maxRecDepth 16384

noncomputable section

namespace Cert.Soft.Pieces

open Cert.KernelIdeal Cert.KernelIdeal.Gen Idealize.ShloMosaic Idealize.ShloMosaic.TcCoe Idealize.ShloMosaic.Tactic Idealize.SL.Sem

variable {F : FTy → Type} [FloatOps F]

theorem hz1 : (![0] : Fin 1 → Nat) = fun _ => 0 := by funext a; match a with | ⟨0, _⟩ => rfl
theorem hz2 : (![0, 0] : Fin 2 → Nat) = fun _ => 0 := by funext a; match a with | ⟨0, _⟩ => rfl | ⟨1, _⟩ => rfl
theorem hz3 : (![0, 0, 0] : Fin 3 → Nat) = fun _ => 0 := by funext a; match a with | ⟨0, _⟩ => rfl | ⟨1, _⟩ => rfl | ⟨2, _⟩ => rfl
theorem hz4 : (![0, 0, 0, 0] : Fin 4 → Nat) = fun _ => 0 := by
  funext a; match a with | ⟨0, _⟩ => rfl | ⟨1, _⟩ => rfl | ⟨2, _⟩ => rfl | ⟨3, _⟩ => rfl

/-- First slab: the weighted-sum accumulator is the slab's share added to the cleared accumulator. -/
theorem sA0 (c : Dev nD) (i : grid0.Coords) (arg2 : Memref sig .tc .vmem S1x512x16x128 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : cond0_0 i) (hc1 : ¬cond0_1 i)
    (x0 : Vec F S1x512x16x128 .f32) (x1 : Vec F S32x512 .f32) (x2 : Vec F S32 .f32) (x3 : Vec F S32 .f32) :
    sout0_A_0 c i arg2 harg2 arg3 harg3 arg4 harg4 arg5 harg5 arg6 harg6 arg7 harg7 arg8 harg8 hc0 hc1 x0 x1 x2 x3 = k0_pay1 (k0_pay9 x0 x1 x2 x3) (k0_pay4 (F := F)) := by
  unfold sout0_A_0
  rw [View.read_writes_eq_canon _ _ _ (scover0_A_0 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32x512) hz2]
  simp only [View.readAt_eq_ld, harg2.read_unread, harg3.read_unread, harg4.read_unread, harg5.read_unread, harg7.read_unread, harg8.read_unread,
    View.ld_unit_zero (S := S1x512x16x128) hz4, View.ld_unit_zero (S := S32x512) hz2, View.ld_unit_zero (S := S32) hz1, View.readCov_unit_zero (S := S32x512) _ hz2, View.readCov_unit_zero (S := S32) _ hz1]

/-- First slab: the weight accumulator likewise. -/
theorem sA1 (c : Dev nD) (i : grid0.Coords) (arg2 : Memref sig .tc .vmem S1x512x16x128 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : cond0_0 i) (hc1 : ¬cond0_1 i)
    (x0 : Vec F S1x512x16x128 .f32) (x1 : Vec F S32x512 .f32) (x2 : Vec F S32 .f32) (x3 : Vec F S32 .f32) :
    sout0_A_1 c i arg2 harg2 arg3 harg3 arg4 harg4 arg5 harg5 arg6 harg6 arg7 harg7 arg8 harg8 hc0 hc1 x0 x1 x2 x3 = k0_pay2 (k0_pay8 x0 x1 x2 x3) (k0_pay5 (F := F)) := by
  unfold sout0_A_1
  rw [View.read_writes_eq_canon _ _ _ (scover0_A_1 c i arg2 harg2 arg3 harg3 arg4 harg4 arg5 harg5 arg6 harg6 arg7 harg7 arg8 harg8 hc0 hc1 x0 x1 x2 x3)]
  unfold kernelRun0_A
  dsimp only
  sl_unfold_words
  rw [View.canon_cons_unit_zero (S := S32) hz1]
  simp only [View.readAt_eq_ld, harg2.read_unread, harg3.read_unread, harg4.read_unread, harg5.read_unread, harg7.read_unread, harg8.read_unread,
    View.ld_unit_zero (S := S1x512x16x128) hz4, View.ld_unit_zero (S := S32x512) hz2, View.ld_unit_zero (S := S32) hz1, View.readCov_unit_zero (S := S32x512) _ hz2, View.readCov_unit_zero (S := S32) _ hz1]

/-- A middle slab adds its share to what the step before left. -/
theorem sB0 (c : Dev nD) (i : grid0.Coords) (arg2 : Memref sig .tc .vmem S1x512x16x128 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : ¬cond0_1 i)
    (x0 : Vec F S1x512x16x128 .f32) (x1 : Vec F S32x512 .f32) (x2 : Vec F S32 .f32) (x3 : Vec F S32 .f32) (xs0 : Vec F S32x512 .f32) (xs1 : Vec F S32 .f32) :
    sout0_B_0 c i arg2 harg2 arg3 harg3 arg4 harg4 arg5 harg5 arg6 harg6 arg7 harg7 arg8 harg8 hc0 hc1 x0 x1 x2 x3 xs0 xs1 = k0_pay1 (k0_pay9 x0 x1 x2 x3) xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S32x512) hz2]
  simp only [View.readAt_eq_ld, harg2.read_unread, harg3.read_unread, harg4.read_unread, harg5.read_unread, harg7.read_unread, harg8.read_unread,
    View.ld_unit_zero (S := S1x512x16x128) hz4, View.ld_unit_zero (S := S32x512) hz2, View.ld_unit_zero (S := S32) hz1]

theorem sB1 (c : Dev nD) (i : grid0.Coords) (arg2 : Memref sig .tc .vmem S1x512x16x128 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : ¬cond0_1 i)
    (x0 : Vec F S1x512x16x128 .f32) (x1 : Vec F S32x512 .f32) (x2 : Vec F S32 .f32) (x3 : Vec F S32 .f32) (xs0 : Vec F S32x512 .f32) (xs1 : Vec F S32 .f32) :
    sout0_B_1 c i arg2 harg2 arg3 harg3 arg4 harg4 arg5 harg5 arg6 harg6 arg7 harg7 arg8 harg8 hc0 hc1 x0 x1 x2 x3 xs0 xs1 = k0_pay2 (k0_pay8 x0 x1 x2 x3) xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 x3 xs0 xs1)]
  unfold kernelRun0_B
  dsimp only
  sl_unfold_words
  rw [View.canon_unit_zero (S := S32) hz1]
  simp only [View.readAt_eq_ld, harg2.read_unread, harg3.read_unread, harg4.read_unread, harg5.read_unread, harg7.read_unread, harg8.read_unread,
    View.ld_unit_zero (S := S1x512x16x128) hz4, View.ld_unit_zero (S := S32x512) hz2, View.ld_unit_zero (S := S32) hz1]

/-- The last slab does the same … -/
theorem sC0 (c : Dev nD) (i : grid0.Coords) (arg2 : Memref sig .tc .vmem S1x512x16x128 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : cond0_1 i)
    (x0 : Vec F S1x512x16x128 .f32) (x1 : Vec F S32x512 .f32) (x2 : Vec F S32 .f32) (x3 : Vec F S32 .f32) (xs0 : Vec F S32x512 .f32) (xs1 : Vec F S32 .f32) :
    sout0_C_0 c i arg2 harg2 arg3 harg3 arg4 harg4 arg5 harg5 arg6 harg6 arg7 harg7 arg8 harg8 hc0 hc1 x0 x1 x2 x3 xs0 xs1 = k0_pay1 (k0_pay9 x0 x1 x2 x3) xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S32x512) hz2]
  simp only [View.readAt_eq_ld, harg2.read_unread, harg3.read_unread, harg4.read_unread, harg5.read_unread, harg7.read_unread, harg8.read_unread,
    View.ld_unit_zero (S := S1x512x16x128) hz4, View.ld_unit_zero (S := S32x512) hz2, View.ld_unit_zero (S := S32) hz1]

theorem sC1 (c : Dev nD) (i : grid0.Coords) (arg2 : Memref sig .tc .vmem S1x512x16x128 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : cond0_1 i)
    (x0 : Vec F S1x512x16x128 .f32) (x1 : Vec F S32x512 .f32) (x2 : Vec F S32 .f32) (x3 : Vec F S32 .f32) (xs0 : Vec F S32x512 .f32) (xs1 : Vec F S32 .f32) :
    sout0_C_1 c i arg2 harg2 arg3 harg3 arg4 harg4 arg5 harg5 arg6 harg6 arg7 harg7 arg8 harg8 hc0 hc1 x0 x1 x2 x3 xs0 xs1 = k0_pay2 (k0_pay8 x0 x1 x2 x3) xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S32) hz1]
  simp only [View.readAt_eq_ld, harg2.read_unread, harg3.read_unread, harg4.read_unread, harg5.read_unread, harg7.read_unread, harg8.read_unread,
    View.ld_unit_zero (S := S1x512x16x128) hz4, View.ld_unit_zero (S := S32x512) hz2, View.ld_unit_zero (S := S32) hz1]

/-- … and writes the output block from the two accumulators it has just updated and the codebook. -/
theorem oC4 (c : Dev nD) (i : grid0.Coords) (arg2 : Memref sig .tc .vmem S1x512x16x128 .f32) (harg2 : arg2.IsWhole) (arg3 : Memref sig .tc .vmem S32x512 .f32) (harg3 : arg3.IsWhole) (arg4 : Memref sig .tc .vmem S32 .f32) (harg4 : arg4.IsWhole) (arg5 : Memref sig .tc .vmem S32 .f32) (harg5 : arg5.IsWhole) (arg6 : Memref sig .tc .vmem S1x32x512 .f32) (harg6 : arg6.IsWhole) (arg7 : Memref sig .tc .vmem S32x512 .f32) (harg7 : arg7.IsWhole) (arg8 : Memref sig .tc .vmem S32 .f32) (harg8 : arg8.IsWhole) (hc0 : ¬cond0_0 i) (hc1 : cond0_1 i)
    (x0 : Vec F S1x512x16x128 .f32) (x1 : Vec F S32x512 .f32) (x2 : Vec F S32 .f32) (x3 : Vec F S32 .f32) (xs0 : Vec F S32x512 .f32) (xs1 : Vec F S32 .f32) :
    out0_C_4 c i arg2 harg2 arg3 harg3 arg4 harg4 arg5 harg5 arg6 harg6 arg7 harg7 arg8 harg8 hc0 hc1 x0 x1 x2 x3 xs0 xs1 = k0_pay3 (k0_pay1 (k0_pay9 x0 x1 x2 x3) xs0) (k0_pay2 (k0_pay8 x0 x1 x2 x3) xs1) x1 := by
  unfold out0_C_4
  rw [View.read_writes_eq_canon _ _ _ (cover0_C_4 c i arg2 harg2 arg3 harg3 arg4 harg4 arg5 harg5 arg6 harg6 arg7 harg7 arg8 harg8 hc0 hc1 x0 x1 x2 x3 xs0 xs1)]
  unfold kernelRun0_C
  dsimp only
  sl_unfold_words
  rw [View.canon_unit_zero (S := S1x32x512) hz3]
  simp only [View.readAt_eq_ld, harg2.read_unread, harg3.read_unread, harg4.read_unread, harg5.read_unread, harg7.read_unread, harg8.read_unread,
    View.ld_unit_zero (S := S1x512x16x128) hz4, View.ld_unit_zero (S := S32x512) hz2, View.ld_unit_zero (S := S32) hz1, View.readCov_unit_zero (S := S32x512) _ hz2, View.readCov_unit_zero (S := S32) _ hz1]

end Cert.Soft.Pieces

end
-- ==== Proof.Payload6.lean ====
/-
  The kernel's slab as a 512 × 2048 matrix: the block (1, 512, 16, 128) with its 16 rows of 128 pixels laid end to end,
  so that entry (d, n) is the block at (0, d, n / 128, n % 128): channel d of the slab's pixel n.  Narrowing to
  sixteen bits changes nothing over the extended reals.
-/
import proofs.«162630_j14053132992759_1_alg».proof.Proof.Gen.KernelIdeal.Skeleton
import proofs.«162630_j14053132992759_1_alg».proof.Proof.Spec
import Idealize.ShloMosaic.PureOps.Ideal.Laws
import Idealize.ShloMosaic.Lib.Pipeline.Value
import Idealize.ShloMosaic.Lib.ValueLayout

noncomputable section

open scoped BigOperators
open Idealize.ShloMosaic Idealize.ShloMosaic.ValueIdx Cert.KernelIdeal Cert.KernelIdeal.Gen Cert.Soft

namespace Cert.Soft.Pay

/-- Entry (d, n) of the slab matrix is channel `d` of the slab's pixel `n`. -/
theorem pay6_apply (x0 : Vec Ideal S1x512x16x128 .f32) (d : Fin 512) (n : Fin 2048) :
    k0_pay6 (F := Ideal) x0 (ix2 d n) = tcol x0 n d := by
  have hn := n.isLt
  unfold k0_pay6
  show shapeCast S512x2048 (shapeCast S512x16x128 x0 shapeCasts_S1x512x16x128_S512x16x128)
      shapeCasts_S512x16x128_S512x2048 (ix2 d n) = _
  -- the cast (512, 16, 128) → (512, 2048) keeps the row-major position: (d, n) comes from (d, n / 128, n % 128)
  refine (shapeCast_apply _ shapeCasts_S512x16x128_S512x2048 (ix2 d n)
    (ix3 d (⟨n.val / 128, by omega⟩ : Fin 16) (⟨n.val % 128, Nat.mod_lt _ (by norm_num)⟩ : Fin 128)) ?_).trans ?_
  · rw [Shape.rowMajor_val_three, Shape.rowMajor_val_two]
    show (d.val * 16 + n.val / 128) * 128 + n.val % 128 = d.val * 2048 + n.val
    omega
  -- the cast that drops the leading unit axis reads (d, h, w) at (0, d, h, w)
  · exact shapeCast_1abc_abc_apply x0 shapeCasts_S1x512x16x128_S512x16x128 d _ _

/-- The same of its sixteen-bit copy. -/
theorem pay7_apply (x0 : Vec Ideal S1x512x16x128 .f32) (d : Fin 512) (n : Fin 2048) :
    k0_pay7 (F := Ideal) x0 (ix2 d n) = tcol x0 n d := by
  unfold k0_pay7
  exact (truncf_apply (k0_pay6 (F := Ideal) x0) bitsLt_bf16_f32 (ix2 d n)).trans (pay6_apply x0 d n)

end Cert.Soft.Pay

end
-- ==== Proof.Payload8.lean ====
/-
  The softmax weights of one slab: entry (k, n) of the kernel's weight matrix is the weight of codeword k at the
  slab's pixel n.

  The matrix is built from pointwise operations, which read through at an index, and from five operations that do not:
  a vector laid out as a column or as a row and repeated across a matrix; the sum of a matrix's columns over its rows
  (over the 512 channels, and over the 32 codewords); the maximum over the 32 codewords; and the product of the
  codebook with the slab.  Each of these is read here once at explicit coordinates, and the weight follows by reading
  the matrix's definition from the outside in.
-/
import proofs.«162630_j14053132992759_1_alg».proof.Proof.Payload6

noncomputable section

open scoped BigOperators
open Idealize.ShloMosaic Idealize.ShloMosaic.ValueIdx Cert.KernelIdeal Cert.KernelIdeal.Gen Cert.Soft

namespace Cert.Soft.Pay

/-! ## A vector as a column, and a column repeated along the rows -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, c)`, the column at `i`. -/
theorem broadcastTo_a1_ab_apply {a b : ℕ} (v : (⟨2, ![a, 1]⟩ : Shape).Idx → α)
    (h : (⟨2, ![a, 1]⟩ : Shape).Broadcasts ⟨2, ![a, b]⟩) (i : Fin a) (c : Fin b) :
    broadcastTo ⟨2, ![a, b]⟩ v h (ix2 i c) = v (ix2 i (0 : Fin 1)) := by
  refine broadcastTo_apply v h (ix2 i c) (ix2 i (0 : Fin 1)) fun ax => ?_
  match ax with
  | ⟨0, _⟩ =>
    show i.val = if a = 1 then 0 else i.val
    split
    · have := i.isLt; omega
    · rfl
  | ⟨1, _⟩ => rfl

/-- A vector over the 32 codewords, laid out as a column and repeated along the 2048 pixels, reads at `(k, n)` the
    vector at `k`. -/
theorem colRep_apply (v : S32.Idx → α) (k : Fin 32) (n : Fin 2048) :
    broadcastTo S32x2048 (shapeCast S32x1 v shapeCasts_S32_S32x1) broadcasts_S32x1_S32x2048 (ix2 k n) = v (ix1 k) := by
  rw [broadcastTo_a1_ab_apply, shapeCast_a_a1_apply]

/-- A vector over the 2048 pixels, laid out as a row and repeated along the 32 codewords, reads at `(k, n)` the
    vector at `n`. -/
theorem rowRep_apply (v : S2048.Idx → α) (k : Fin 32) (n : Fin 2048) :
    broadcastTo S32x2048 (shapeCast S1x2048 v shapeCasts_S2048_S1x2048) broadcasts_S1x2048_S32x2048 (ix2 k n) = v (ix1 n) := by
  rw [broadcastTo_1b_ab_apply, shapeCast_a_1a_apply]

end Layout

/-! ## The three reductions down the rows of a matrix -/

/-- The exponential of a vector reads through at an index. -/
theorem exp_apply {s : Shape} {φ : FTy} (v : FVec Ideal s φ) (i : s.Idx) : exp v i = Ideal.exp (v i) := rfl

/-- The sum of a 512 × 2048 matrix over its 512 rows, at column `n`. -/
theorem sumChan_apply (src : FVec Ideal S512x2048 .f32) (n : Fin 2048) :
    multiReduction (F := Ideal) .add [0] S2048 src 0x00000000#32 reduces_S512x2048_S2048 (.inl rfl) rfl (ix1 n)
      = ∑ d : Fin 512, src (ix2 d n) := by
  refine (Ideal.multiReduction_add_single src 0x00000000#32 reduces_S512x2048_S2048 (.inl rfl) rfl (ix1 n)).trans ?_
  refine Finset.sum_congr rfl fun d _ => congrArg src (funext fun a => Fin.ext ?_)
  match a with
  | ⟨0, _⟩ => rfl
  | ⟨1, _⟩ => rfl

/-- The sum of a 32 × 2048 matrix over its 32 rows, at column `n`. -/
theorem sumCode_apply (src : FVec Ideal S32x2048 .f32) (n : Fin 2048) :
    multiReduction (F := Ideal) .add [0] S2048 src 0x00000000#32 reduces_S32x2048_S2048 (.inl rfl) rfl (ix1 n)
      = ∑ k : Fin 32, src (ix2 k n) := by
  refine (Ideal.multiReduction_add_single src 0x00000000#32 reduces_S32x2048_S2048 (.inl rfl) rfl (ix1 n)).trans ?_
  refine Finset.sum_congr rfl fun k _ => congrArg src (funext fun a => Fin.ext ?_)
  match a with
  | ⟨0, _⟩ => rfl
  | ⟨1, _⟩ => rfl

/-- The maximum of a 32 × 2048 matrix over its 32 rows, at column `n`: folded from −∞. -/
theorem maxCode_apply (src : FVec Ideal S32x2048 .f32) (n : Fin 2048) :
    multiReduction (F := Ideal) .maximumf [0] S2048 src 0xFF800000#32 reduces_S32x2048_S2048 (.inl rfl) rfl (ix1 n)
      = (Finset.univ : Finset (Fin 32)).fold max negInf (fun k => src (ix2 k n)) := by
  refine (Ideal.multiReduction_maximumf_single src 0xFF800000#32 reduces_S32x2048_S2048 (.inl rfl) rfl (ix1 n)).trans ?_
  refine congrArg ((Finset.univ : Finset (Fin 32)).fold max negInf) (funext fun k => congrArg src (funext fun a => Fin.ext ?_))
  match a with
  | ⟨0, _⟩ => rfl
  | ⟨1, _⟩ => rfl

/-! ## The product of the codebook with the slab -/

/-- The left operand's row is the result's row … -/
theorem mm_lhs_0 (i : S32x2048.Idx) (q : dot_S32x512_S512x2048_S32x2048_1_0_0_1_n_n.contr.Idx) :
    (dot_S32x512_S512x2048_S32x2048_1_0_0_1_n_n.lhsIdx i q 0).val = (i 0).val := by
  unfold DotDims.lhsIdx
  rw [dif_neg (show ¬(0 : Fin S32x512.rank) ∈ dot_S32x512_S512x2048_S32x2048_1_0_0_1_n_n.lhsBatch by decide), dif_pos (show (0 : Fin S32x512.rank) ∈ dot_S32x512_S512x2048_S32x2048_1_0_0_1_n_n.lhsNonContracting by decide)]
  rfl
/-- … its column the summation index … -/
theorem mm_lhs_1 (i : S32x2048.Idx) (q : dot_S32x512_S512x2048_S32x2048_1_0_0_1_n_n.contr.Idx) :
    (dot_S32x512_S512x2048_S32x2048_1_0_0_1_n_n.lhsIdx i q 1).val = (q ⟨0, by decide⟩).val :=
  dot_S32x512_S512x2048_S32x2048_1_0_0_1_n_n.lhsIdx_val_of_single rfl i q
/-- … which is also the right operand's row … -/
theorem mm_rhs_0 (i : S32x2048.Idx) (q : dot_S32x512_S512x2048_S32x2048_1_0_0_1_n_n.contr.Idx) :
    (dot_S32x512_S512x2048_S32x2048_1_0_0_1_n_n.rhsIdx i q 0).val = (q ⟨0, by decide⟩).val :=
  dot_S32x512_S512x2048_S32x2048_1_0_0_1_n_n.rhsIdx_val_of_single rfl i q
/-- … and the right operand's column is the result's column. -/
theorem mm_rhs_1 (i : S32x2048.Idx) (q : dot_S32x512_S512x2048_S32x2048_1_0_0_1_n_n.contr.Idx) :
    (dot_S32x512_S512x2048_S32x2048_1_0_0_1_n_n.rhsIdx i q 1).val = (i 1).val := by
  unfold DotDims.rhsIdx
  rw [dif_neg (show ¬(1 : Fin S512x2048.rank) ∈ dot_S32x512_S512x2048_S32x2048_1_0_0_1_n_n.rhsBatch by decide), dif_pos (show (1 : Fin S512x2048.rank) ∈ dot_S32x512_S512x2048_S32x2048_1_0_0_1_n_n.rhsNonContracting by decide)]
  rfl

/-- Entry `(k, n)` of a 32 × 512 matrix times a 512 × 2048 matrix, accumulated into zero: the sum over the 512
    channels of the products. -/
theorem mm_apply (lhs : FVec Ideal S32x512 .bf16) (rhs : FVec Ideal S512x2048 .bf16) (k : Fin 32) (n : Fin 2048) :
    matmul (F := Ideal) dot_S32x512_S512x2048_S32x2048_1_0_0_1_n_n none lhs rhs (constant (F := Ideal) S32x2048 .f32 0x00000000#32) (ix2 k n)
      = ∑ d : Fin 512, lhs (ix2 k d) * rhs (ix2 d n) := by
  simp only [matmul]
  rw [Ideal.matmul_constant_zero_apply, ← Equiv.sum_comp (contrEquiv1 dot_S32x512_S512x2048_S32x2048_1_0_0_1_n_n 512 rfl rfl).symm]
  refine Finset.sum_congr rfl fun d _ => ?_
  have hd := contrEquiv1_symm_val dot_S32x512_S512x2048_S32x2048_1_0_0_1_n_n 512 rfl rfl d
  have el : dot_S32x512_S512x2048_S32x2048_1_0_0_1_n_n.lhsIdx (ix2 k n) ((contrEquiv1 dot_S32x512_S512x2048_S32x2048_1_0_0_1_n_n 512 rfl rfl).symm d) = ix2 k d := funext fun a => Fin.ext (by
    match a with
    | ⟨0, _⟩ => exact mm_lhs_0 _ _
    | ⟨1, _⟩ => exact (mm_lhs_1 _ _).trans hd)
  have er : dot_S32x512_S512x2048_S32x2048_1_0_0_1_n_n.rhsIdx (ix2 k n) ((contrEquiv1 dot_S32x512_S512x2048_S32x2048_1_0_0_1_n_n 512 rfl rfl).symm d) = ix2 d n := funext fun a => Fin.ext (by
    match a with
    | ⟨0, _⟩ => exact (mm_rhs_0 _ _).trans hd
    | ⟨1, _⟩ => exact mm_rhs_1 _ _)
  rw [el, er]

/-! ## The weight matrix at an entry -/

/-- Entry (k, n) of the slab's weight matrix: the softmax weight of codeword `k` among the 32 scores of pixel `n`,
    the codewords' squared norms read from the fourth operand. -/
theorem pay8_apply (x0 : Vec Ideal S1x512x16x128 .f32) (x1 : Vec Ideal S32x512 .f32) (x2 x3 : Vec Ideal S32 .f32)
    (k : Fin 32) (n : Fin 2048) :
    k0_pay8 (F := Ideal) x0 x1 x2 x3 (ix2 k n) = weight (scoreC x1 x2 x3 (tcol x0 n)) k := by
  unfold k0_pay8
  -- the quotient, the exponentials and the score's arithmetic read through; the layout operations and the product are
  -- read at their coordinates; what is left at each round are the three reductions, read where they then stand
  simp only [divf_apply, exp_apply, subf_apply, mulf_apply, addf_apply, maximumf_apply, broadcast_apply, truncf_apply,
    rowRep_apply, colRep_apply, mm_apply, shapeCast_self, pay6_apply, pay7_apply, Ideal.ofBits_def]
  rw [sumChan_apply, maxCode_apply, sumCode_apply]
  simp only [divf_apply, exp_apply, subf_apply, mulf_apply, addf_apply, maximumf_apply, broadcast_apply, truncf_apply,
    rowRep_apply, colRep_apply, mm_apply, shapeCast_self, pay6_apply, pay7_apply, Ideal.ofBits_def]
  rw [sumChan_apply, maxCode_apply]
  simp only [divf_apply, exp_apply, subf_apply, mulf_apply, addf_apply, maximumf_apply, broadcast_apply, truncf_apply,
    rowRep_apply, colRep_apply, mm_apply, shapeCast_self, pay6_apply, pay7_apply, Ideal.ofBits_def]
  rw [sumChan_apply]
  simp only [divf_apply, exp_apply, subf_apply, mulf_apply, addf_apply, maximumf_apply, broadcast_apply, truncf_apply,
    rowRep_apply, colRep_apply, mm_apply, shapeCast_self, pay6_apply, pay7_apply, Ideal.ofBits_def]
  rfl

end Cert.Soft.Pay

end
-- ==== Proof.Payload9.lean ====
/-
  What one slab adds to the two accumulators, and the final combination, read at an index.
-/
import proofs.«162630_j14053132992759_1_alg».proof.Proof.Payload8

noncomputable section

open scoped BigOperators
open Idealize.ShloMosaic Idealize.ShloMosaic.ValueIdx Cert.KernelIdeal Cert.KernelIdeal.Gen Cert.Soft

namespace Cert.Soft.Pay

/-! The product contracts the second axis of both operands: at output (k, d) and contraction position n the left
    operand is read at (k, n) and the right operand at (d, n). One lemma per operand axis. -/
theorem lhs_pay9_0 (i : S32x512.Idx) (q : dot_S32x2048_S512x2048_S32x512_1_1_0_0_n_n.contr.Idx) :
    (dot_S32x2048_S512x2048_S32x512_1_1_0_0_n_n.lhsIdx i q 0).val = (i 0).val := by
  unfold DotDims.lhsIdx
  rw [dif_neg (show ¬(0 : Fin S32x2048.rank) ∈ dot_S32x2048_S512x2048_S32x512_1_1_0_0_n_n.lhsBatch by decide), dif_pos (show (0 : Fin S32x2048.rank) ∈ dot_S32x2048_S512x2048_S32x512_1_1_0_0_n_n.lhsNonContracting by decide)]
  rfl
theorem lhs_pay9_1 (i : S32x512.Idx) (q : dot_S32x2048_S512x2048_S32x512_1_1_0_0_n_n.contr.Idx) :
    (dot_S32x2048_S512x2048_S32x512_1_1_0_0_n_n.lhsIdx i q 1).val = (q ⟨0, by decide⟩).val :=
  dot_S32x2048_S512x2048_S32x512_1_1_0_0_n_n.lhsIdx_val_of_single rfl i q
theorem rhs_pay9_0 (i : S32x512.Idx) (q : dot_S32x2048_S512x2048_S32x512_1_1_0_0_n_n.contr.Idx) :
    (dot_S32x2048_S512x2048_S32x512_1_1_0_0_n_n.rhsIdx i q 0).val = (i 1).val := by
  unfold DotDims.rhsIdx
  rw [dif_neg (show ¬(0 : Fin S512x2048.rank) ∈ dot_S32x2048_S512x2048_S32x512_1_1_0_0_n_n.rhsBatch by decide), dif_pos (show (0 : Fin S512x2048.rank) ∈ dot_S32x2048_S512x2048_S32x512_1_1_0_0_n_n.rhsNonContracting by decide)]
  rfl
theorem rhs_pay9_1 (i : S32x512.Idx) (q : dot_S32x2048_S512x2048_S32x512_1_1_0_0_n_n.contr.Idx) :
    (dot_S32x2048_S512x2048_S32x512_1_1_0_0_n_n.rhsIdx i q 1).val = (q ⟨0, by decide⟩).val :=
  dot_S32x2048_S512x2048_S32x512_1_1_0_0_n_n.rhsIdx_val_of_single rfl i q

/-- Entry (k, d) of the slab's weighted pixel sum. -/
theorem pay9_apply (x0 : Vec Ideal S1x512x16x128 .f32) (x1 : Vec Ideal S32x512 .f32) (x2 x3 : Vec Ideal S32 .f32)
    (k : Fin 32) (d : Fin 512) :
    k0_pay9 (F := Ideal) x0 x1 x2 x3 (ix2 k d)
      = ∑ n : Fin 2048, weight (scoreC x1 x2 x3 (tcol x0 n)) k * tcol x0 n d := by
  unfold k0_pay9
  -- into a zero accumulator the product at (k, d) is the sum over the contraction positions …
  refine (Ideal.matmul_constant_zero_apply dot_S32x2048_S512x2048_S32x512_1_1_0_0_n_n none
    (truncf .bf16 (k0_pay8 (F := Ideal) x0 x1 x2 x3) bitsLt_bf16_f32) (k0_pay7 (F := Ideal) x0) (ix2 k d)).trans ?_
  -- … which are the 2048 pixels of the slab
  rw [← Equiv.sum_comp (contrEquiv1 dot_S32x2048_S512x2048_S32x512_1_1_0_0_n_n 2048 rfl rfl).symm]
  refine Finset.sum_congr rfl fun n _ => ?_
  have hk := contrEquiv1_symm_val dot_S32x2048_S512x2048_S32x512_1_1_0_0_n_n 2048 rfl rfl n
  have el : dot_S32x2048_S512x2048_S32x512_1_1_0_0_n_n.lhsIdx (ix2 k d) ((contrEquiv1 dot_S32x2048_S512x2048_S32x512_1_1_0_0_n_n 2048 rfl rfl).symm n) = ix2 k n := funext fun a => Fin.ext (by
    match a with
    | ⟨0, _⟩ => exact lhs_pay9_0 _ _
    | ⟨1, _⟩ => exact (lhs_pay9_1 _ _).trans hk)
  have er : dot_S32x2048_S512x2048_S32x512_1_1_0_0_n_n.rhsIdx (ix2 k d) ((contrEquiv1 dot_S32x2048_S512x2048_S32x512_1_1_0_0_n_n 2048 rfl rfl).symm n) = ix2 d n := funext fun a => Fin.ext (by
    match a with
    | ⟨0, _⟩ => exact rhs_pay9_0 _ _
    | ⟨1, _⟩ => exact (rhs_pay9_1 _ _).trans hk)
  rw [el, er]
  -- the left factor is the weight of codeword k at pixel n, the right factor channel d of pixel n
  rw [truncf_apply, pay8_apply, pay7_apply]

/-- The weighted-sum accumulator after a slab: what it held plus the slab's share. -/
theorem pay1_apply (v38 : FVec Ideal S32x512 .f32) (v40 : Vec Ideal S32x512 .f32) (i : S32x512.Idx) :
    k0_pay1 (F := Ideal) v38 v40 i = v40 i + v38 i := by
  unfold k0_pay1
  show shapeCast S32x512 (addf v40 v38) shapeCasts_S32x512_S32x512 i = _
  rw [shapeCast_self]
  rfl

/-- The weight accumulator after a slab: what it held plus the slab's weights of codeword `k` summed over its pixels. -/
theorem pay2_apply (v36 : FVec Ideal S32x2048 .f32) (v45 : Vec Ideal S32 .f32) (k : Fin 32) :
    k0_pay2 (F := Ideal) v36 v45 (ix1 k) = v45 (ix1 k) + ∑ n : Fin 2048, v36 (ix2 k n) := by
  unfold k0_pay2
  show shapeCast S32 (addf v45 (multiReduction (F := Ideal) .add [1] S32 v36 0x00000000#32 reduces_S32x2048_S32 (.inl rfl) rfl))
      shapeCasts_S32_S32 (ix1 k) = _
  rw [shapeCast_self, addf_apply]
  refine congrArg (v45 (ix1 k) + ·) ?_
  -- the sum along the second axis, the pixel put back at coordinate 1
  refine (Ideal.multiReduction_add_single v36 0x00000000#32 reduces_S32x2048_S32 (.inl rfl) rfl (ix1 k)).trans ?_
  refine Finset.sum_congr rfl fun n _ => congrArg v36 (funext fun a => Fin.ext (by
    match a with
    | ⟨0, _⟩ => rfl
    | ⟨1, _⟩ => rfl))

/-- The final combination: weighted sum minus summed weight times the codeword. -/
theorem pay3_apply (v53 : Vec Ideal S32x512 .f32) (v54 : Vec Ideal S32 .f32) (v56 : Vec Ideal S32x512 .f32)
    (k : Fin 32) (d : Fin 512) :
    k0_pay3 (F := Ideal) v53 v54 v56 (ix3 0 k d) = v53 (ix2 k d) - v54 (ix1 k) * v56 (ix2 k d) := by
  unfold k0_pay3
  show shapeCast S1x32x512 (subf (F := Ideal) (φ := .f32) v53 (mulf (F := Ideal) (φ := .f32) (broadcastTo S32x512
      (shapeCast S32x1 v54 shapeCasts_S32_S32x1) broadcasts_S32x1_S32x512) v56))
      shapeCasts_S32x512_S1x32x512 (ix3 0 k d) = _
  -- the added leading unit axis is read through; then the pointwise operations
  rw [shapeCast_ab_1ab_apply, subf_apply, mulf_apply]
  -- the column [32, 1] spread over the 512 channels reads row k's one entry, which is entry k of the vector
  rw [broadcastTo_apply (shapeCast S32x1 v54 shapeCasts_S32_S32x1) broadcasts_S32x1_S32x512 (ix2 k d) (ix2 k (0 : Fin 1))
      (fun a => match a with | ⟨0, _⟩ => rfl | ⟨1, _⟩ => rfl),
    shapeCast_apply v54 shapeCasts_S32_S32x1 (ix2 k (0 : Fin 1)) (ix1 k) (by
      rw [Shape.rowMajor_val_one, Shape.rowMajor_val_two]
      show k.val = k.val * 1 + 0
      omega)]

/-- Both accumulators are cleared to zero. -/
theorem pay4_apply (i : S32x512.Idx) : k0_pay4 (F := Ideal) i = 0 := by
  unfold k0_pay4
  show shapeCast S32x512 (broadcast S32x512 (Scalar.ofBits (F := Ideal) .f32 0x00000000#32)) shapeCasts_S32x512_S32x512 i = 0
  rw [shapeCast_self, broadcast_apply]
  exact Ideal.ofBits_zero_f32
theorem pay5_apply (i : S32.Idx) : k0_pay5 (F := Ideal) i = 0 := by
  unfold k0_pay5
  show shapeCast S32 (broadcast S32 (Scalar.ofBits (F := Ideal) .f32 0x00000000#32)) shapeCasts_S32_S32 i = 0
  rw [shapeCast_self, broadcast_apply]
  exact Ideal.ofBits_zero_f32

end Cert.Soft.Pay

end
-- ==== Proof.Accum.lean ====
/-
  The two accumulators, step by step.  Within an image the eight steps run over its slabs in order.  The first
  clears the accumulators and adds slab 0's shares; each later one adds its slab's shares to what the step before
  left; so after slab `j` they hold the running sums `acc` of the slabs' shares up to `j` — for the weighted pixel
  sums `slabE`, for the summed weights `slabS`.  The last step of an image also writes the output block: the first
  accumulator minus the second times the codebook, entry by entry.
-/
import proofs.«162630_j14053132992759_1_alg».proof.Proof.Blocks
import proofs.«162630_j14053132992759_1_alg».proof.Proof.Pieces
import proofs.«162630_j14053132992759_1_alg».proof.Proof.Payload9

set_option maxRecDepth 16384

noncomputable section

open scoped BigOperators

namespace Cert.Soft.KV

open Cert.KernelIdeal Cert.KernelIdeal.Gen Idealize.ShloMosaic Idealize.ShloMosaic.TcCoe Idealize.SL.Sem
open Idealize.ShloMosaic.ValueIdx Cert.Soft

variable (m : (ℓ : Loc nD τ sig) → Buf (Elt Ideal) ℓ)

/-- Step `t`'s share of the weighted pixel sums is slab `t % 8`'s of image `t / 8`. -/
theorem share_E (c : Dev nD) (t : Fin cfg0.N) (k : Fin 32) (d : Fin 512) :
    k0_pay9 (F := Ideal) (xblk m c t) (cblk m c t) (sblk m c t) (qblk m c t) (ix2 k d)
      = slabE (Xarr m c) (Carr m c) (Sarr m c) (img t) k d (t.val % 8) := by
  rw [Pay.pay9_apply, cblk_eq, sblk_eq, qblk_eq, Qarr_eq]
  unfold slabE
  refine Finset.sum_congr rfl fun n _ => ?_
  rw [tcol_xblk]
  rfl

/-- Its share of the summed weights likewise. -/
theorem share_S (c : Dev nD) (t : Fin cfg0.N) (k : Fin 32) :
    (∑ n : Fin 2048, k0_pay8 (F := Ideal) (xblk m c t) (cblk m c t) (sblk m c t) (qblk m c t) (ix2 k n))
      = slabS (Xarr m c) (Carr m c) (Sarr m c) (img t) k (t.val % 8) := by
  unfold slabS
  refine Finset.sum_congr rfl fun n _ => ?_
  rw [Pay.pay8_apply, cblk_eq, sblk_eq, qblk_eq, Qarr_eq, tcol_xblk]
  rfl

/-- The first step of an image leaves slab 0's shares over the cleared accumulators. -/
theorem stepA (c : Dev nD) (t : Fin cfg0.N) (h0 : t.val % 8 = 0) (h1 : ¬t.val % 8 = 7) :
    (∀ (k : Fin 32) (d : Fin 512), (outsAt0 m c t.val t.isLt).2.1 (ix2 k d)
        = 0 + slabE (Xarr m c) (Carr m c) (Sarr m c) (img t) k d (t.val % 8))
    ∧ (∀ k : Fin 32, (outsAt0 m c t.val t.isLt).2.2 (ix1 k)
        = 0 + slabS (Xarr m c) (Carr m c) (Sarr m c) (img t) k (t.val % 8)) := by
  rw [outsAt0_A m c t h0 h1]
  dsimp only
  refine ⟨fun k d => ?_, fun k => ?_⟩
  · refine (congrFun (Pieces.sA0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix2 k d)).trans ?_
    refine (Pay.pay1_apply (k0_pay9 (F := Ideal) (xblk m c t) (cblk m c t) (sblk m c t) (qblk m c t)) (k0_pay4 (F := Ideal)) (ix2 k d)).trans ?_
    rw [Pay.pay4_apply (ix2 k d), share_E m c t k d]
  · refine (congrFun (Pieces.sA1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t)) (ix1 k)).trans ?_
    refine (Pay.pay2_apply (k0_pay8 (F := Ideal) (xblk m c t) (cblk m c t) (sblk m c t) (qblk m c t)) (k0_pay5 (F := Ideal)) k).trans ?_
    rw [Pay.pay5_apply (ix1 k), share_S m c t k]

/-- A middle step adds its slab's shares to what the step before left. -/
theorem stepB (c : Dev nD) (t : Fin cfg0.N) (h0 : ¬t.val % 8 = 0) (h1 : ¬t.val % 8 = 7) :
    (∀ (k : Fin 32) (d : Fin 512), (outsAt0 m c t.val t.isLt).2.1 (ix2 k d)
        = (outsAt0 m c (t.val - 1) (Nat.lt_of_le_of_lt (Nat.sub_le _ _) t.isLt)).2.1 (ix2 k d) + slabE (Xarr m c) (Carr m c) (Sarr m c) (img t) k d (t.val % 8))
    ∧ (∀ k : Fin 32, (outsAt0 m c t.val t.isLt).2.2 (ix1 k)
        = (outsAt0 m c (t.val - 1) (Nat.lt_of_le_of_lt (Nat.sub_le _ _) t.isLt)).2.2 (ix1 k) + slabS (Xarr m c) (Carr m c) (Sarr m c) (img t) k (t.val % 8)) := by
  rw [outsAt0_B m c t h0 h1]
  dsimp only
  refine ⟨fun k d => ?_, fun k => ?_⟩
  · refine (congrFun (Pieces.sB0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix2 k d)).trans ?_
    refine (Pay.pay1_apply (k0_pay9 (F := Ideal) (xblk m c t) (cblk m c t) (sblk m c t) (qblk m c t)) (outsAt0 m c (t.val - 1) (Nat.lt_of_le_of_lt (Nat.sub_le _ _) t.isLt)).2.1 (ix2 k d)).trans ?_
    rw [share_E m c t k d]
  · refine (congrFun (Pieces.sB1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2) (ix1 k)).trans ?_
    refine (Pay.pay2_apply (k0_pay8 (F := Ideal) (xblk m c t) (cblk m c t) (sblk m c t) (qblk m c t)) (outsAt0 m c (t.val - 1) (Nat.lt_of_le_of_lt (Nat.sub_le _ _) t.isLt)).2.2 k).trans ?_
    rw [share_S m c t k]

/-- The last step of an image does the same, and writes the output block from the two accumulators it has just
    updated: entry (k, d) is the first at (k, d) minus the second at k times the codebook at (k, d). -/
theorem stepC (c : Dev nD) (t : Fin cfg0.N) (h0 : ¬t.val % 8 = 0) (h1 : t.val % 8 = 7) :
    (∀ (k : Fin 32) (d : Fin 512), (outsAt0 m c t.val t.isLt).2.1 (ix2 k d)
        = (outsAt0 m c (t.val - 1) (Nat.lt_of_le_of_lt (Nat.sub_le _ _) t.isLt)).2.1 (ix2 k d) + slabE (Xarr m c) (Carr m c) (Sarr m c) (img t) k d (t.val % 8))
    ∧ (∀ k : Fin 32, (outsAt0 m c t.val t.isLt).2.2 (ix1 k)
        = (outsAt0 m c (t.val - 1) (Nat.lt_of_le_of_lt (Nat.sub_le _ _) t.isLt)).2.2 (ix1 k) + slabS (Xarr m c) (Carr m c) (Sarr m c) (img t) k (t.val % 8))
    ∧ (∀ (k : Fin 32) (d : Fin 512), (outsAt0 m c t.val t.isLt).1 (ix3 0 k d)
        = (outsAt0 m c t.val t.isLt).2.1 (ix2 k d) - (outsAt0 m c t.val t.isLt).2.2 (ix1 k) * Carr m c (ix2 k d)) := by
  rw [outsAt0_C m c t h0 h1]
  dsimp only
  have e0 := Pieces.sC0 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  have e1 := Pieces.sC1 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  have e4 := Pieces.oC4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2
  refine ⟨fun k d => ?_, fun k => ?_, fun k d => ?_⟩
  · refine (congrFun e0 (ix2 k d)).trans ?_
    refine (Pay.pay1_apply (k0_pay9 (F := Ideal) (xblk m c t) (cblk m c t) (sblk m c t) (qblk m c t)) (outsAt0 m c (t.val - 1) (Nat.lt_of_le_of_lt (Nat.sub_le _ _) t.isLt)).2.1 (ix2 k d)).trans ?_
    rw [share_E m c t k d]
  · refine (congrFun e1 (ix1 k)).trans ?_
    refine (Pay.pay2_apply (k0_pay8 (F := Ideal) (xblk m c t) (cblk m c t) (sblk m c t) (qblk m c t)) (outsAt0 m c (t.val - 1) (Nat.lt_of_le_of_lt (Nat.sub_le _ _) t.isLt)).2.2 k).trans ?_
    rw [share_S m c t k]
  · refine (congrFun e4 (ix3 0 k d)).trans ?_
    refine (Pay.pay3_apply (k0_pay1 (k0_pay9 (F := Ideal) (xblk m c t) (cblk m c t) (sblk m c t) (qblk m c t)) (outsAt0 m c (t.val - 1) (Nat.lt_of_le_of_lt (Nat.sub_le _ _) t.isLt)).2.1) (k0_pay2 (k0_pay8 (F := Ideal) (xblk m c t) (cblk m c t) (sblk m c t) (qblk m c t)) (outsAt0 m c (t.val - 1) (Nat.lt_of_le_of_lt (Nat.sub_le _ _) t.isLt)).2.2) (cblk m c t) k d).trans ?_
    have hc : cblk m c t (ix2 k d) = Carr m c (ix2 k d) := congrFun (cblk_eq m c t) (ix2 k d)
    rw [congrFun e0 (ix2 k d), congrFun e1 (ix1 k), ← hc]

theorem acc_first (f : ℕ → EReal) (j : ℕ) (hj : j = 0) : 0 + f j = acc f j := by subst hj; rfl
theorem acc_next (f : ℕ → EReal) (j j' : ℕ) (hj : j = j' + 1) (p : EReal) (hp : p = acc f j') : p + f j = acc f j := by
  subst hj hp; rfl

/-- After step `n` the accumulators hold the running sums of image `n / 8`'s slabs up to slab `n % 8`. -/
theorem running (c : Dev nD) : ∀ (n : ℕ) (hn : n < cfg0.N),
    (∀ (k : Fin 32) (d : Fin 512), (outsAt0 m c n hn).2.1 (ix2 k d)
        = acc (slabE (Xarr m c) (Carr m c) (Sarr m c) (img ⟨n, hn⟩) k d) (n % 8))
    ∧ (∀ k : Fin 32, (outsAt0 m c n hn).2.2 (ix1 k)
        = acc (slabS (Xarr m c) (Carr m c) (Sarr m c) (img ⟨n, hn⟩) k) (n % 8)) := by
  intro n
  induction n with
  | zero =>
    intro hn
    obtain ⟨a, b⟩ := stepA m c ⟨0, hn⟩ (by rfl) (by show ¬(0 : ℕ) % 8 = 7; decide)
    exact ⟨fun k d => (a k d).trans (acc_first _ _ rfl), fun k => (b k).trans (acc_first _ _ rfl)⟩
  | succ n ih =>
    intro hn
    have hN : n + 1 < 64 := lt_of_lt_of_eq hn (show cfg0.N = 64 from N_0)
    by_cases h0 : (n + 1) % 8 = 0
    · obtain ⟨a, b⟩ := stepA m c ⟨n + 1, hn⟩ h0 (by show ¬(n + 1) % 8 = 7; omega)
      exact ⟨fun k d => (a k d).trans (acc_first _ _ h0), fun k => (b k).trans (acc_first _ _ h0)⟩
    · obtain ⟨ihE, ihS⟩ := ih (Nat.lt_of_succ_lt hn)
      have himg : img ⟨n, Nat.lt_of_succ_lt hn⟩ = img ⟨n + 1, hn⟩ := Fin.ext (by show n / 8 = (n + 1) / 8; omega)
      have hj : (n + 1) % 8 = n % 8 + 1 := by omega
      rw [himg] at ihE ihS
      by_cases h1 : (n + 1) % 8 = 7
      · obtain ⟨a, b, -⟩ := stepC m c ⟨n + 1, hn⟩ h0 h1
        exact ⟨fun k d => (a k d).trans (acc_next _ _ _ hj _ (ihE k d)), fun k => (b k).trans (acc_next _ _ _ hj _ (ihS k))⟩
      · obtain ⟨a, b⟩ := stepB m c ⟨n + 1, hn⟩ h0 h1
        exact ⟨fun k d => (a k d).trans (acc_next _ _ _ hj _ (ihE k d)), fun k => (b k).trans (acc_next _ _ _ hj _ (ihS k))⟩

end Cert.Soft.KV

end
-- ==== Proof.Final.lean ====
/-
  The kernel's result array after the run.  The output window's block is image `t / 8`'s 32 × 512 slice; it is
  written back only after the last step of an image (`t % 8 = 7`), when it holds the first accumulator minus the
  second times the codebook — which, the accumulators then being the sums over all eight slabs, is the result
  function `E` on that image.  The eight flushed blocks tile the array, so the array ends holding `E`.
-/
import proofs.«162630_j14053132992759_1_alg».proof.Proof.Accum

set_option maxRecDepth 16384

noncomputable section

open scoped BigOperators

namespace Cert.Soft.KV

open Cert.KernelIdeal Cert.KernelIdeal.Gen Idealize.ShloMosaic Idealize.ShloMosaic.TcCoe Idealize.SL.Sem
open Idealize.ShloMosaic.ValueIdx Cert.Soft

variable (m : (ℓ : Loc nD τ sig) → Buf (Elt Ideal) ℓ) (ρ : Dev nD → PrngReg)

/-- The output block is written back only after the last slab of an image … -/
theorem flush_only_last : ∀ t : Fin cfg0.N, (cfg0.win 4).flush t = true → t.val % 8 = 7 :=
  (by decide +kernel : ∀ t : Fin grid0.N, (cfg0.win 4).flush t = true → t.val % 8 = 7)

/-- … and it is written back after the last slab of every image. -/
theorem flush_last : ∀ b : Fin 8, ∃ t : Fin cfg0.N, t.val = 8 * b.val + 7 ∧ (cfg0.win 4).flush t = true :=
  (by decide +kernel : ∀ b : Fin 8, ∃ t : Fin grid0.N, t.val = 8 * b.val + 7 ∧ (cfg0.win 4).flush t = true)

/-- WHAT A FLUSHING STEP WRITES BACK is its block of the result function. -/
theorem flushed_eq (c : Dev nD) (t : Fin cfg0.N) (hf : (cfg0.win 4).flush t = true) :
    (dats m 0 c).flushed 4 t
      = ((cfg0.win 4).blk t).view.read (Elt Ideal) (E (Xarr m c) (Carr m c) (Sarr m c)) := by
  have h1 : t.val % 8 = 7 := flush_only_last t hf
  have h0 : ¬t.val % 8 = 0 := by omega
  rw [Value.flushed4]
  refine funext fun (j : S1x32x512.Idx) => ?_
  obtain ⟨k, d, rfl⟩ : ∃ (k : Fin 32) (d : Fin 512), j = ix3 (0 : Fin 1) k d :=
    ⟨j 1, j 2, funext fun a => by
      match a with
      | ⟨0, _⟩ => exact Fin.ext (by have : (j 0).val < 1 := (j 0).isLt; show (j 0).val = 0; omega)
      | ⟨1, _⟩ => rfl
      | ⟨2, _⟩ => rfl⟩
  show (outsAt0 m c t.val t.isLt).1 (ix3 (0 : Fin 1) k d)
     = E (Xarr m c) (Carr m c) (Sarr m c) (((cfg0.win 4).blk t).view.emb (ix3 (0 : Fin 1) k d))
  obtain ⟨rE, rS⟩ := running m c t.val t.isLt
  obtain ⟨-, -, -, -, -, -, -, -, e8, e9, e10⟩ := idx_facts t
  have hemb : ((cfg0.win 4).blk t).view.emb (ix3 (0 : Fin 1) k d) = ix3 (img t) k d := by
    funext a; apply Fin.ext
    match a with
    | ⟨0, _⟩ => show win0_4.index t (0 : Fin 3) * 1 + 1 * 0 = t.val / 8; omega
    | ⟨1, _⟩ => show win0_4.index t (1 : Fin 3) * 32 + 1 * k.val = k.val; omega
    | ⟨2, _⟩ => show win0_4.index t (2 : Fin 3) * 512 + 1 * d.val = d.val; omega
  rw [hemb, E_eq_acc, (stepC m c t h0 h1).2.2 k d, rE k d, rS k, h1]

/-- An index of the result array is in step `t`'s block iff each coordinate is in the block's range on its axis. -/
theorem mem_blk (t : Fin cfg0.N) (i : S8x32x512.Idx) :
    i ∈ ((cfg0.win 4).blk t).view.set ↔ ∀ a : Fin 3, win0_4.index t a * S1x32x512.size a ≤ (i a).val ∧ (i a).val < win0_4.index t a * S1x32x512.size a + S1x32x512.size a := by
  show i ∈ ((View.whole main_v2).slice (win0_4.rect t)).set ↔ _
  rw [View.set_slice_whole, Rect.mem_set_unit]
  exact Iff.rfl

/-- Every index of the result array is in the block some step writes back: image `b`'s after step `8·b + 7`. -/
theorem cover (i : S8x32x512.Idx) :
    ∃ t : Fin cfg0.N, (cfg0.win 4).flush t = true ∧ i ∈ ((cfg0.win 4).blk t).view.set := by
  obtain ⟨t, ht, hf⟩ := flush_last (i 0)
  obtain ⟨-, -, -, -, -, -, -, -, e8, e9, e10⟩ := idx_facts t
  refine ⟨t, hf, ?_⟩
  rw [mem_blk]
  have hi0 : (i 0).val < 8 := (i 0).isLt
  have hi1 : (i 1).val < 32 := (i 1).isLt
  have hi2 : (i 2).val < 512 := (i 2).isLt
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 32 ≤ (i 1).val ∧ (i 1).val < win0_4.index t (1 : Fin 3) * 32 + 32; omega
  | ⟨2, _⟩ => show win0_4.index t (2 : Fin 3) * 512 ≤ (i 2).val ∧ (i 2).val < win0_4.index t (2 : Fin 3) * 512 + 512; omega

/-- THE RESULT ARRAY after the run is the result function of the three arguments as launched. -/
theorem final (c : Dev nD) :
    (dats m 0 c).arrAt 4 cfg0.N
      = E (m ((c : Thread nD τ).loc main_arg0)) (m ((c : Thread nD τ).loc main_arg1)) (m ((c : Thread nD τ).loc main_arg2)) := by
  have e : (dats m 0 c).arrAt 4 cfg0.N = E (Xarr m c) (Carr m c) (Sarr m c) :=
    (dats m 0 c).arrAt_eq_of_cover 4 (E (Xarr m c) (Carr m c) (Sarr m c)) (fun t hf => flushed_eq m c t hf) cover
  rw [e]
  show E (V m c main_arg0) (V m c main_arg1) (V m c main_arg2) = _
  rw [V_main_arg0, V_main_arg1, V_main_arg2]

/-- The kernel's run: it terminates with the result array at `E` of the arguments, the arguments unchanged. -/
theorem run : θ_run defs (onTc (τ := τ) (main (F := Ideal))) ⟨m, fun _ => 0, ρ⟩ fun r => ∀ c : Dev nD,
      r.2.mem ((c : Thread nD τ).loc main_v2)
        = E (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.Soft.KV

end
-- ==== Proof.lean ====
/-
  Soft assignment of pixels to a codebook and aggregation of the residuals: the kernel against its plain reference,
  over the extended reals.

  Both programs compute, for each image `b`, codeword `k` and channel `d`,
      `E[b, k, d] = ∑ n, w(b, n, k) · X[b, d, n] − (∑ n, w(b, n, k)) · cw[k, d]`,
  `w(b, n, ·)` the softmax over the 32 codewords of the scores `sc[k] · (|x|² − 2·⟨cw[k], x⟩ + |cw[k]|²)` of pixel
  `x = X[b, ·, n]` (Proof/Spec.lean states it once).  The reference does this on whole arrays (Proof/RefIsSpec.lean reads
  its operations one at a time).  The kernel walks an 8 × 8 grid: image by image, and within an image over eight
  slabs of 2048 pixels, keeping the two sums over `n` in accumulators that it clears at an image's first slab and
  combines into the output block at its last (Proof/Payload6, 8, 9: one slab's matrices entry by entry;
  Proof/Pieces, Blocks, Accum: the accumulators step by step; Proof/Final: the array after the run).  The two agree
  because a sum over 16384 pixels is the sum over eight slabs of the sums over each slab's pixels — commutativity and
  associativity of addition only, so nothing is asked of the inputs beyond what the claim states, and the narrowing
  of the matrix products' operands to sixteen bits is the identity over the extended reals.
  Nothing was rewritten when the kernel was idealized, so that claim is trivially true; the three programs' runs are
  the generated ones.
-/
import proofs.«162630_j14053132992759_1_alg».proof.Defs
import proofs.«162630_j14053132992759_1_alg».proof.Proof.Gen.Kernel
import proofs.«162630_j14053132992759_1_alg».proof.Proof.Gen.Kernel.Skeleton
import proofs.«162630_j14053132992759_1_alg».proof.Proof.Gen.Kernel.Launch
import proofs.«162630_j14053132992759_1_alg».proof.Proof.Gen.Kernel.Points
import proofs.«162630_j14053132992759_1_alg».proof.Proof.Gen.Kernel.Frame
import proofs.«162630_j14053132992759_1_alg».proof.Proof.Gen.KernelIdeal
import proofs.«162630_j14053132992759_1_alg».proof.Proof.Gen.KernelIdeal.Skeleton
import proofs.«162630_j14053132992759_1_alg».proof.Proof.Gen.KernelIdeal.Launch
import proofs.«162630_j14053132992759_1_alg».proof.Proof.Gen.KernelIdeal.Points
import proofs.«162630_j14053132992759_1_alg».proof.Proof.Gen.KernelIdeal.Frame
import proofs.«162630_j14053132992759_1_alg».proof.Proof.Gen.ReferenceIdeal
import proofs.«162630_j14053132992759_1_alg».proof.Proof.Gen.KernelIdeal.Value
import proofs.«162630_j14053132992759_1_alg».proof.Proof.Gen.ReferenceIdeal.Run
import proofs.«162630_j14053132992759_1_alg».proof.Proof.Gen.ReferenceIdeal.Read
import proofs.«162630_j14053132992759_1_alg».proof.Proof.Gen.Pre_finite_inputs
import proofs.«162630_j14053132992759_1_alg».proof.Proof.RefIsSpec
import proofs.«162630_j14053132992759_1_alg».proof.Proof.Final
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_k [Cert.Kernel.Facts] [Cert.Pre_finite_inputs.Facts] : Cert.frame_Kernel :=
  fun m ρ _ => Cert.Kernel.Gen.frame m ρ

/-- So does the kernel read over the extended reals. -/
theorem frame_ki [Cert.KernelIdeal.Facts] [Cert.Pre_finite_inputs.Facts] : Cert.frame_KernelIdeal :=
  fun m ρ _ => Cert.KernelIdeal.Gen.frame m ρ

/-- The reference's run with its result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- From memories that agree on the three arguments both programs end with the result function `E` of them. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Soft.E (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.Soft.KV.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v36_eq, Cert.Soft.Ref.ref_is_E, (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
